-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x20000 : Shape := ⟨2, ![2048, 20000]⟩
abbrev S2000000 : Shape := ⟨1, ![2000000]⟩
abbrev S4096 : Shape := ⟨1, ![4096]⟩
abbrev S2000000x2 : Shape := ⟨2, ![2000000, 2]⟩
abbrev S_ : Shape := ⟨0, ![]⟩
abbrev S2000000x1 : Shape := ⟨2, ![2000000, 1]⟩

class Facts : Prop where
  bcast_S_S2048x20000 : S_.BroadcastsInDim S2048x20000 (![] : Fin 0 → Fin S2048x20000.rank)
  reducesTo_S2048x20000_S_d0_1 : S2048x20000.ReducesTo [0, 1] S_
  h_S_ : 0 < S_.numel
  bcast_S_S2000000 : S_.BroadcastsInDim S2000000 (![] : Fin 0 → Fin S2000000.rank)
  reducesTo_S2000000_S_d0 : S2000000.ReducesTo [0] S_
  bcast_S_S4096 : S_.BroadcastsInDim S4096 (![] : Fin 0 → Fin S4096.rank)
  reducesTo_S4096_S_d0 : S4096.ReducesTo [0] S_
  slices_S2000000x2_S2000000x1_0_0 : S2000000x2.Slices ![0, 0] S2000000x1
  shapeCasts_S2000000x1_S2000000 : S2000000x1.ShapeCasts S2000000

variable [Facts]

def fn_part1 {F : FTy → Type} [FloatOps F] (main_v13 : IVec S_ 1) (main_v15 : IVec S2000000 32) (main_v16 : IVec S2000000 32) : IVec S_ 1 :=
  let main_v17 : IVec S2000000 1 := cmpi .sge main_v15 main_v16
  let main_c_5 : IVec S_ 1 := constantI S_ 1 1#1
  let main_v18 : IVec S_ 1 := (fun x v => Host.reduce IntOp.andi x v reducesTo_S2000000_S_d0 h_S_) main_v17 main_c_5
  let main_v19 : IVec S_ 1 := andi main_v13 main_v18
  main_v19

def fn {F : FTy → Type} [FloatOps F] (main_arg0 : FVec F S2048x20000 .f32) (main_arg1 : FVec F S2000000 .f32) (main_arg2 : FVec F S4096 .f32) (main_arg3 : IVec S2000000x2 32) : IVec S_ 1 :=
  let main_v0 : FVec F S2048x20000 .f32 := Host.absf main_arg0
  let main_cst : FVec F S_ .f32 := constant S_ .f32 0x7F800000#32
  let main_v1 : FVec F S2048x20000 .f32 := broadcastInDim S2048x20000 ![] bcast_S_S2048x20000 main_cst
  let main_v2 : IVec S2048x20000 1 := cmpf .olt main_v0 main_v1
  let main_c : IVec S_ 1 := constantI S_ 1 1#1
  let main_v3 : IVec S_ 1 := (fun x v => Host.reduce IntOp.andi x v reducesTo_S2048x20000_S_d0_1 h_S_) main_v2 main_c
  let main_v4 : FVec F S2000000 .f32 := Host.absf main_arg1
  let main_cst_0 : FVec F S_ .f32 := constant S_ .f32 0x7F800000#32
  let main_v5 : FVec F S2000000 .f32 := broadcastInDim S2000000 ![] bcast_S_S2000000 main_cst_0
  let main_v6 : IVec S2000000 1 := cmpf .olt main_v4 main_v5
  let main_c_1 : IVec S_ 1 := constantI S_ 1 1#1
  let main_v7 : IVec S_ 1 := (fun x v => Host.reduce IntOp.andi x v reducesTo_S2000000_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : IVec S2000000x1 32 := (extractStridedSlice S2000000x1 ![0, 0] · slices_S2000000x2_S2000000x1_0_0) main_arg3
  let main_v15 : IVec S2000000 32 := shapeCast S2000000 main_v14 shapeCasts_S2000000x1_S2000000
  let main_c_4 : IVec S_ 32 := constantI S_ 32 0#32
  let main_v16 : IVec S2000000 32 := broadcastInDim S2000000 ![] bcast_S_S2000000 main_c_4
  fn_part1 (F := F) main_v13 main_v15 main_v16
-- ==== Kernel.lean ====
abbrev S2048x20000 : Shape := ⟨2, ![2048, 20000]⟩
abbrev S2000000 : Shape := ⟨1, ![2000000]⟩
abbrev S4096 : Shape := ⟨1, ![4096]⟩
abbrev S2000000x2 : Shape := ⟨2, ![2000000, 2]⟩
abbrev S2000000x1 : Shape := ⟨2, ![2000000, 1]⟩
abbrev S_ : Shape := ⟨0, ![]⟩
abbrev S20480x4096 : Shape := ⟨2, ![20480, 4096]⟩
abbrev S2048x20480 : Shape := ⟨2, ![2048, 20480]⟩
abbrev S1x4096 : Shape := ⟨2, ![1, 4096]⟩
abbrev S2048x4096 : Shape := ⟨2, ![2048, 4096]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 33
  | .vmem => 9
  | .smem => 0
  | _ => 0

abbrev bufTy : (tb : Table) → Fin (tcTables nBuf tb) → BufTy
  | .hbm, ⟨0, _⟩ => ⟨S2048x20000, .f32⟩
  | .hbm, ⟨1, _⟩ => ⟨S2000000, .f32⟩
  | .hbm, ⟨2, _⟩ => ⟨S4096, .f32⟩
  | .hbm, ⟨3, _⟩ => ⟨S2000000x2, .i32⟩
  | .hbm, ⟨4, _⟩ => ⟨S2000000x1, .i32⟩
  | .hbm, ⟨5, _⟩ => ⟨S2000000, .i32⟩
  | .hbm, ⟨6, _⟩ => ⟨S2000000x1, .i32⟩
  | .hbm, ⟨7, _⟩ => ⟨S2000000, .i32⟩
  | .hbm, ⟨8, _⟩ => ⟨S_, .f32⟩
  | .hbm, ⟨9, _⟩ => ⟨S20480x4096, .f32⟩
  | .hbm, ⟨10, _⟩ => ⟨S_, .i32⟩
  | .hbm, ⟨11, _⟩ => ⟨S2000000, .i32⟩
  | .hbm, ⟨12, _⟩ => ⟨S2000000, .i1⟩
  | .hbm, ⟨13, _⟩ => ⟨S_, .i32⟩
  | .hbm, ⟨14, _⟩ => ⟨S2000000, .i32⟩
  | .hbm, ⟨15, _⟩ => ⟨S2000000, .i32⟩
  | .hbm, ⟨16, _⟩ => ⟨S2000000, .i32⟩
  | .hbm, ⟨17, _⟩ => ⟨S_, .i32⟩
  | .hbm, ⟨18, _⟩ => ⟨S2000000, .i32⟩
  | .hbm, ⟨19, _⟩ => ⟨S2000000, .i1⟩
  | .hbm, ⟨20, _⟩ => ⟨S_, .i32⟩
  | .hbm, ⟨21, _⟩ => ⟨S2000000, .i32⟩
  | .hbm, ⟨22, _⟩ => ⟨S2000000, .i32⟩
  | .hbm, ⟨23, _⟩ => ⟨S2000000, .i32⟩
  | .hbm, ⟨24, _⟩ => ⟨S2000000x1, .i32⟩
  | .hbm, ⟨25, _⟩ => ⟨S2000000x1, .i32⟩
  | .hbm, ⟨26, _⟩ => ⟨S2000000x2, .i32⟩
  | .hbm, ⟨27, _⟩ => ⟨S20480x4096, .f32⟩
  | .hbm, ⟨28, _⟩ => ⟨S_, .i32⟩
  | .hbm, ⟨29, _⟩ => ⟨S_, .f32⟩
  | .hbm, ⟨30, _⟩ => ⟨S2048x20480, .f32⟩
  | .hbm, ⟨31, _⟩ => ⟨S1x4096, .f32⟩
  | .hbm, ⟨32, _⟩ => ⟨S2048x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S2048x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_call0_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 20], ![false, false, false]⟩

def k0_cond2 (i : grid0.Coords) : BitVec 1 :=
  let arg2 : BitVec 32 := BitVec.ofNat 32 (i 2).val
  let c19_i32 : BitVec 32 := 19#32
  let v15 : BitVec 1 := Scalar.cmpi .eq arg2 c19_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  slices_S2000000x2_S2000000x1_0_0 : S2000000x2.Slices ![0, 0] S2000000x1
  shapeCasts_S2000000x1_S2000000 : S2000000x1.ShapeCasts S2000000
  slices_S2000000x2_S2000000x1_0_1 : S2000000x2.Slices ![0, 1] S2000000x1
  bcast_S_S20480x4096 : S_.BroadcastsInDim S20480x4096 (![] : Fin 0 → Fin S20480x4096.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x1_S2000000x1_S2000000x2_d1 : Shape.Concatenates [S2000000x1, S2000000x1] S2000000x2 1
  pads_S2048x20000_S2048x20480_000_04800 : S2048x20000.Pads (![0, 0] : Fin 2 → Nat) ![0, 480] ![0, 0] S2048x20480
  h_S_ : 0 < S_.numel
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  scatter_S20480x4096_S2000000x2_S2000000_n_01_01_1_wf : ScatterDims.WF S20480x4096 S2000000x2 S2000000 [] [0, 1] [0, 1] 1
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x20480.size a
  hwx0_0 : ∀ i : grid0.Coords, EltTy.bits .f32 = 32 ∨ (Rect.block (s := S2048x20480) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S20480x4096.size a
  hwx0_1 : ∀ i : grid0.Coords, EltTy.bits .f32 = 32 ∨ (Rect.block (s := S20480x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S2048x4096.size a
  hwx0_3 : ∀ i : grid0.Coords, EltTy.bits .f32 = 32 ∨ (Rect.block (s := S2048x4096) S512x1024.size (cc0_transform_3 i) (hinb0_3 i)).WholeWords (EltTy.packing .f32)

variable [Facts₀]

def scatter_S20480x4096_S2000000x2_S2000000_n_01_01_1 : ScatterDims S20480x4096 S2000000x2 S2000000 where
  updateWindowDims := []
  insertedWindowDims := [0, 1]
  scatterDimsToOperandDims := [0, 1]
  indexVectorDim := 1
  wf := scatter_S20480x4096_S2000000x2_S2000000_n_01_01_1_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v19) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2048x20000 : Shape := ⟨2, ![2048, 20000]⟩
abbrev S2000000 : Shape := ⟨1, ![2000000]⟩
abbrev S4096 : Shape := ⟨1, ![4096]⟩
abbrev S2000000x2 : Shape := ⟨2, ![2000000, 2]⟩
abbrev S_ : Shape := ⟨0, ![]⟩
abbrev S20000x4096 : Shape := ⟨2, ![20000, 4096]⟩
abbrev S2000000x1 : Shape := ⟨2, ![2000000, 1]⟩
abbrev S2048x4096 : Shape := ⟨2, ![2048, 4096]⟩
abbrev S1x4096 : Shape := ⟨2, ![1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S2048x20000, .f32⟩
  | .hbm, ⟨1, _⟩ => ⟨S2000000, .f32⟩
  | .hbm, ⟨2, _⟩ => ⟨S4096, .f32⟩
  | .hbm, ⟨3, _⟩ => ⟨S2000000x2, .i32⟩
  | .hbm, ⟨4, _⟩ => ⟨S_, .f32⟩
  | .hbm, ⟨5, _⟩ => ⟨S20000x4096, .f32⟩
  | .hbm, ⟨6, _⟩ => ⟨S2000000x1, .i32⟩
  | .hbm, ⟨7, _⟩ => ⟨S2000000, .i32⟩
  | .hbm, ⟨8, _⟩ => ⟨S2000000x1, .i32⟩
  | .hbm, ⟨9, _⟩ => ⟨S2000000, .i32⟩
  | .hbm, ⟨10, _⟩ => ⟨S_, .i32⟩
  | .hbm, ⟨11, _⟩ => ⟨S2000000, .i32⟩
  | .hbm, ⟨12, _⟩ => ⟨S2000000, .i1⟩
  | .hbm, ⟨13, _⟩ => ⟨S_, .i32⟩
  | .hbm, ⟨14, _⟩ => ⟨S2000000, .i32⟩
  | .hbm, ⟨15, _⟩ => ⟨S2000000, .i32⟩
  | .hbm, ⟨16, _⟩ => ⟨S2000000, .i32⟩
  | .hbm, ⟨17, _⟩ => ⟨S_, .i32⟩
  | .hbm, ⟨18, _⟩ => ⟨S2000000, .i32⟩
  | .hbm, ⟨19, _⟩ => ⟨S2000000, .i1⟩
  | .hbm, ⟨20, _⟩ => ⟨S_, .i32⟩
  | .hbm, ⟨21, _⟩ => ⟨S2000000, .i32⟩
  | .hbm, ⟨22, _⟩ => ⟨S2000000, .i32⟩
  | .hbm, ⟨23, _⟩ => ⟨S2000000, .i32⟩
  | .hbm, ⟨24, _⟩ => ⟨S2000000x1, .i32⟩
  | .hbm, ⟨25, _⟩ => ⟨S2000000x1, .i32⟩
  | .hbm, ⟨26, _⟩ => ⟨S2000000x2, .i32⟩
  | .hbm, ⟨27, _⟩ => ⟨S20000x4096, .f32⟩
  | .hbm, ⟨28, _⟩ => ⟨S2048x4096, .f32⟩
  | .hbm, ⟨29, _⟩ => ⟨S1x4096, .f32⟩
  | .hbm, ⟨30, _⟩ => ⟨S2048x4096, .f32⟩
  | .hbm, ⟨31, _⟩ => ⟨S2048x4096, .f32⟩
  | .hbm, ⟨32, _⟩ => ⟨S2048x4096, .f32⟩
  | _, _ => ⟨S2048x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  bcast_S_S20000x4096 : S_.BroadcastsInDim S20000x4096 (![] : Fin 0 → Fin S20000x4096.rank)
  slices_S2000000x2_S2000000x1_0_0 : S2000000x2.Slices ![0, 0] S2000000x1
  shapeCasts_S2000000x1_S2000000 : S2000000x1.ShapeCasts S2000000
  slices_S2000000x2_S2000000x1_0_1 : S2000000x2.Slices ![0, 1] S2000000x1
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x1_S2000000x1_S2000000x2_d1 : Shape.Concatenates [S2000000x1, S2000000x1] S2000000x2 1
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  scatter_S20000x4096_S2000000x2_S2000000_n_01_01_1_wf : ScatterDims.WF S20000x4096 S2000000x2 S2000000 [] [0, 1] [0, 1] 1
  dot_S2048x20000_S20000x4096_S2048x4096_1_0_0_1_n_n_wf : DotDims.WF S2048x20000 S20000x4096 S2048x4096 [1] [0] [0] [1] [] []

variable [Facts₀]

def scatter_S20000x4096_S2000000x2_S2000000_n_01_01_1 : ScatterDims S20000x4096 S2000000x2 S2000000 where
  updateWindowDims := []
  insertedWindowDims := [0, 1]
  scatterDimsToOperandDims := [0, 1]
  indexVectorDim := 1
  wf := scatter_S20000x4096_S2000000x2_S2000000_n_01_01_1_wf
def dot_S2048x20000_S20000x4096_S2048x4096_1_0_0_1_n_n : DotDims S2048x20000 S20000x4096 S2048x4096 where
  lhsContracting := [1]
  rhsContracting := [0]
  lhsNonContracting := [0]
  rhsNonContracting := [1]
  lhsBatch := []
  rhsBatch := []
  wf := dot_S2048x20000_S20000x4096_S2048x4096_1_0_0_1_n_n_wf

class Facts : Prop extends Facts₀ where

variable [Facts]
-- ==== Proof.KernelBlocks.lean ====
/-
  Where each window's block sits, and what the three input blocks hold.

  The grid has 4 × 4 × 20 points, visited with the reduction axis fastest: the point at position `t` has row tile
  `t / 80`, column tile `(t / 20) % 4` and reduction step `t % 20`. At that point the left operand's block is rows
  `512·(t / 80) …` and columns `1024·(t % 20) …` of the zero-padded input, the table's block is rows `1024·(t % 20) …`
  and columns `1024·((t / 20) % 4) …` of the padded dense table, the bias block is columns `1024·((t / 20) % 4) …` of
  the bias row, and the output block is rows `512·(t / 80) …`, columns `1024·((t / 20) % 4) …` of the result.
-/
import proofs.«103931_j84181359001849_1_alg».proof.Proof.Gen.KernelIdeal.Frame
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The left operand's block index at position `t`: (row tile, reduction step). -/
theorem idx_x : ∀ t : Fin cfg0.N, win0_0.index t 0 = t.val / 80 ∧ win0_0.index t 1 = t.val % 20 :=
  (by decide +kernel : ∀ t : Fin grid0.N, win0_0.index t 0 = t.val / 80 ∧ win0_0.index t 1 = t.val % 20)

/-- The table's block index at position `t`: (reduction step, column tile). -/
theorem idx_w : ∀ t : Fin cfg0.N, win0_1.index t 0 = t.val % 20 ∧ win0_1.index t 1 = t.val / 20 % 4 :=
  (by decide +kernel : ∀ t : Fin grid0.N, win0_1.index t 0 = t.val % 20 ∧ win0_1.index t 1 = t.val / 20 % 4)

/-- The bias row's block index at position `t`: (0, column tile). -/
theorem idx_b : ∀ t : Fin cfg0.N, win0_2.index t 0 = 0 ∧ win0_2.index t 1 = t.val / 20 % 4 :=
  (by decide +kernel : ∀ t : Fin grid0.N, win0_2.index t 0 = 0 ∧ win0_2.index t 1 = t.val / 20 % 4)

/-- The output's block index at position `t`: (row tile, column tile). -/
theorem idx_o : ∀ t : Fin cfg0.N, win0_3.index t 0 = t.val / 80 ∧ win0_3.index t 1 = t.val / 20 % 4 :=
  (by decide +kernel : ∀ t : Fin grid0.N, win0_3.index t 0 = t.val / 80 ∧ win0_3.index t 1 = t.val / 20 % 4)

/-- The three input blocks at a point, at their literal shapes. -/
abbrev xblk (c : Dev nD) (t : Fin cfg0.N) : Vec F S512x1024 .f32 := iblk m c 0 t
abbrev wblk (c : Dev nD) (t : Fin cfg0.N) : Vec F S1024x1024 .f32 := iblk m c 1 t
abbrev bblk (c : Dev nD) (t : Fin cfg0.N) : Vec F S1x1024 .f32 := iblk m c 2 t

/-- The three arrays the region reads, at their literal shapes. -/
abbrev xarr (c : Dev nD) : Vec F S2048x20480 .f32 := V m c main_v19
abbrev warr (c : Dev nD) : Vec F S20480x4096 .f32 := V m c main_v18
abbrev barr (c : Dev nD) : Vec F S1x4096 .f32 := V m c main_v20

theorem N320 : cfg0.N = 320 := N_0

/-- Entry `(a, k)` of the left operand's block at position `t` is entry `(512·(t/80) + a, 1024·(t%20) + k)` of the padded input. -/
theorem xblk_apply (c : Dev nD) (t : Fin cfg0.N) (a : Fin 512) (k : Fin 1024) :
    xblk m c t (ix2 a k)
      = xarr m c (ix2 (⟨512 * (t.val / 80) + a.val, by have := t.isLt; have := N320; omega⟩ : Fin 2048)
          (⟨1024 * (t.val % 20) + k.val, by omega⟩ : Fin 20480)) := by
  obtain ⟨h0, h1⟩ := idx_x t
  unfold xblk iblk
  rw [View.read_apply]
  show V m c main_v19 _ = V m c main_v19 _
  congr 1
  funext ax
  apply Fin.ext
  match ax with
  | ⟨0, _⟩ => show win0_0.index t 0 * 512 + 1 * a.val = 512 * (t.val / 80) + a.val; rw [h0]; omega
  | ⟨1, _⟩ => show win0_0.index t 1 * 1024 + 1 * k.val = 1024 * (t.val % 20) + k.val; rw [h1]; omega

/-- Entry `(k, b)` of the table's block at position `t` is entry `(1024·(t%20) + k, 1024·((t/20)%4) + b)` of the padded table. -/
theorem wblk_apply (c : Dev nD) (t : Fin cfg0.N) (k : Fin 1024) (b : Fin 1024) :
    wblk m c t (ix2 k b)
      = warr m c (ix2 (⟨1024 * (t.val % 20) + k.val, by omega⟩ : Fin 20480)
          (⟨1024 * (t.val / 20 % 4) + b.val, by omega⟩ : Fin 4096)) := by
  obtain ⟨h0, h1⟩ := idx_w t
  unfold wblk iblk
  rw [View.read_apply]
  show V m c main_v18 _ = V m c main_v18 _
  congr 1
  funext ax
  apply Fin.ext
  match ax with
  | ⟨0, _⟩ => show win0_1.index t 0 * 1024 + 1 * k.val = 1024 * (t.val % 20) + k.val; rw [h0]; omega
  | ⟨1, _⟩ => show win0_1.index t 1 * 1024 + 1 * b.val = 1024 * (t.val / 20 % 4) + b.val; rw [h1]; omega

/-- Entry `(0, b)` of the bias block at position `t` is entry `(0, 1024·((t/20)%4) + b)` of the bias row. -/
theorem bblk_apply (c : Dev nD) (t : Fin cfg0.N) (b : Fin 1024) :
    bblk m c t (ix2 (0 : Fin 1) b)
      = barr m c (ix2 (0 : Fin 1) (⟨1024 * (t.val / 20 % 4) + b.val, by omega⟩ : Fin 4096)) := by
  obtain ⟨h0, h1⟩ := idx_b t
  unfold bblk iblk
  rw [View.read_apply]
  show V m c main_v20 _ = V m c main_v20 _
  congr 1
  funext ax
  apply Fin.ext
  match ax with
  | ⟨0, _⟩ => show win0_2.index t 0 * 1 + 1 * 0 = 0; rw [h0]
  | ⟨1, _⟩ => show win0_2.index t 1 * 1024 + 1 * b.val = 1024 * (t.val / 20 % 4) + b.val; rw [h1]; omega

end Cert.KernelIdeal.Hand

end
-- ==== Proof.KernelPieces.lean ====
/-
  What each control case of the kernel body leaves in the carried accumulator and in the output block, as the
  body's pure values over the blocks it loads.

  At the first reduction step the accumulator is stored at zero and then the product of the two loaded blocks is
  added to what was just stored; at every later step the product is added to what the step before left; at the
  last step the output block is the hyperbolic tangent of the accumulator just stored plus the bias row. Each store
  covers the whole block at zero offsets, so what a buffer ends holding is the payload of its last store, and a load
  of the whole block after such a store reads that payload.
-/
import proofs.«103931_j84181359001849_1_alg».proof.Proof.Gen.KernelIdeal.Frame
import Idealize.ShloMosaic.Lib.Pipeline.Value

set_option maxRecDepth 16384

noncomputable section

namespace Cert.KernelIdeal.Pieces

open Idealize.ShloMosaic Idealize.ShloMosaic.TcCoe Idealize.ShloMosaic.Tactic
open Idealize.SL.Sem
open Cert.KernelIdeal Cert.KernelIdeal.Gen

variable {F : FTy → Type} [FloatOps F]

/-- The two zero offsets, as the constant-zero function. -/
theorem hz : (![0, 0] : Fin 2 → Nat) = fun _ => 0 := funext fun a => by fin_cases a <;> rfl

/-- First reduction step: the accumulator ends at the zero block plus the product of the two loaded blocks. -/
theorem sout_A (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : cond0_0 i) (hc1 : ¬cond0_1 i)
    (x0 : Vec F S512x1024 .f32) (x1 : Vec F S1024x1024 .f32) (x2 : Vec F S1x1024 .f32) :
    sout0_A_0 c i arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S512x1024) hz, View.readCov_unit_zero (S := S512x1024) _ hz]
  simp only [View.readAt_eq_ld, harg3.read_unread, harg4.read_unread, View.ld_unit_zero (S := S512x1024) hz, View.ld_unit_zero (S := S1024x1024) hz]

/-- A middle reduction step: the accumulator ends at what it held plus the product of the two loaded blocks. -/
theorem sout_B (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : ¬cond0_1 i)
    (x0 : Vec F S512x1024 .f32) (x1 : Vec F S1024x1024 .f32) (x2 : Vec F S1x1024 .f32) (xs0 : Vec F S512x1024 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg3.read_unread, harg4.read_unread, harg7.read_unread, View.ld_unit_zero (S := S512x1024) hz, View.ld_unit_zero (S := S1024x1024) hz]

/-- The last reduction step: the accumulator, likewise. -/
theorem sout_C (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : cond0_1 i)
    (x0 : Vec F S512x1024 .f32) (x1 : Vec F S1024x1024 .f32) (x2 : Vec F S1x1024 .f32) (xs0 : Vec F S512x1024 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg7.read_unread, View.ld_unit_zero (S := S512x1024) hz, View.ld_unit_zero (S := S1024x1024) hz]

/-- The last reduction step: the output block is the hyperbolic tangent of the accumulator just stored plus the
    bias row broadcast down the rows. -/
theorem out_C (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond0_0 i) (hc1 : cond0_1 i)
    (x0 : Vec F S512x1024 .f32) (x1 : Vec F S1024x1024 .f32) (x2 : Vec F S1x1024 .f32) (xs0 : Vec F S512x1024 .f32) :
    out0_C_3 c i arg3 harg3 arg4 harg4 arg5 harg5 arg6 harg6 arg7 harg7 hc0 hc1 x0 x1 x2 xs0 = k0_pay3 x2 (k0_pay2 x0 x1 xs0) := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg5.read_unread, harg7.read_unread, View.ld_unit_zero (S := S512x1024) hz, View.ld_unit_zero (S := S1024x1024) hz, View.ld_unit_zero (S := S1x1024) hz, View.readCov_unit_zero (S := S512x1024) _ hz]

end Cert.KernelIdeal.Pieces

end
-- ==== Proof.LibPlainDot.lean ====
/-
  A plain matrix product read at a row and a column.

  For the dimension numbers "contract the left operand's columns with the right operand's rows, no batch axis"
  (`DotDims.plain M K N`), a `tpu.matmul` into an accumulator of zeros, read on the extended reals at row `p`
  and column `q`, is `Σₜ A[p, t] · B[t, q]` over `t : Fin K`: the accumulator contributes `0`, and the sum over
  the one-axis contraction index is re-indexed by that axis's coordinate.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The left operand's index at output `(p, q)` and contraction coordinate `t` is `(p, t)`. -/
theorem lhsIdx_eq (M K N : Nat) (p : Fin M) (q : Fin N) (t : Fin K) :
    (DotDims.plain M K N).lhsIdx (ix2 p q) ((contrEquiv1 (DotDims.plain M K N) K rfl rfl).symm t) = ix2 p t := by
  have hk := contrEquiv1_symm_val (DotDims.plain M K N) K rfl rfl t
  funext a
  apply Fin.ext
  match a with
  | ⟨0, _⟩ => rfl
  | ⟨1, _⟩ => exact ((DotDims.plain M K N).lhsIdx_val_of_single rfl (ix2 p q) _).trans hk

/-- The right operand's is `(t, q)`. -/
theorem rhsIdx_eq (M K N : Nat) (p : Fin M) (q : Fin N) (t : Fin K) :
    (DotDims.plain M K N).rhsIdx (ix2 p q) ((contrEquiv1 (DotDims.plain M K N) K rfl rfl).symm t) = ix2 t q := by
  have hk := contrEquiv1_symm_val (DotDims.plain M K N) K rfl rfl t
  funext a
  apply Fin.ext
  match a with
  | ⟨0, _⟩ => exact ((DotDims.plain M K N).rhsIdx_val_of_single rfl (ix2 p q) _).trans hk
  | ⟨1, _⟩ => rfl

/-- A plain `M × K` by `K × N` product into zeros, at row `p` and column `q`, is `Σₜ A[p, t] · B[t, q]`. -/
theorem matmul_zero_apply {φ₁ φ₂ : FTy} (M K N : Nat) (prec : Option ContractPrecision)
    (A : FVec Ideal ⟨2, ![M, K]⟩ φ₁) (B : FVec Ideal ⟨2, ![K, N]⟩ φ₂) (p : Fin M) (q : Fin N) :
    FloatOps.matmul (DotDims.plain M K N) prec A B (constant ⟨2, ![M, N]⟩ .f32 0x00000000#32) (ix2 p q)
      = ∑ t : Fin K, A (ix2 p t) * B (ix2 t q) := by
  rw [Ideal.matmul_constant_zero_apply, ← Equiv.sum_comp (contrEquiv1 (DotDims.plain M K N) K rfl rfl).symm]
  refine Finset.sum_congr rfl fun t _ => ?_
  rw [lhsIdx_eq, rhsIdx_eq]

end Idealize.ShloMosaic.PlainDot

end
-- ==== Proof.LibMatrixReads.lean ====
/-
  Matrices read at a row and a column, and a sum over consecutive runs.

  For arrays with two axes of literal extents: a single row broadcast down the rows reads that row; a slice at a
  row offset and a column offset reads the operand that many rows down and columns to the right; a transpose
  swaps the coordinates; a vector laid out as a single row reads the vector. And in any commutative monoid a sum
  over `a + b` consecutive terms is the sum of the first `a` plus the sum of the last `b`.
-/
import Idealize.ShloMosaic.Lib.Pipeline.Value
import Idealize.ShloMosaic.Lib.ValueIdx
import Mathlib.Algebra.BigOperators.Fin

noncomputable section

open scoped BigOperators

namespace Idealize.ShloMosaic.MatrixReads

open Idealize.ShloMosaic Idealize.ShloMosaic.ValueIdx

/-- A single row broadcast down `m` rows reads that row at every row. -/
theorem rowBroadcast_apply {α : Type} (m n : Nat) (x : (⟨2, ![1, n]⟩ : Shape).Idx → α)
    (h : (⟨2, ![1, n]⟩ : Shape).Broadcasts ⟨2, ![m, n]⟩) (p : Fin m) (j : Fin n) :
    broadcastTo ⟨2, ![m, n]⟩ x h (ix2 p j) = x (ix2 (0 : Fin 1) j) := by
  refine broadcastTo_apply x h (ix2 p j) (ix2 0 j) fun a => ?_
  match a with
  | ⟨0, _⟩ => rfl
  | ⟨1, _⟩ =>
    show j.val = if n = 1 then 0 else j.val
    have := j.isLt
    split_ifs with hn
    · omega
    · rfl

/-- A slice of columns `off … off + n' - 1` reads the operand `off` columns to the right. -/
theorem colSlice_apply {α : Type} (m n n' off : Nat) (x : (⟨2, ![m, n]⟩ : Shape).Idx → α)
    (h : (⟨2, ![m, n]⟩ : Shape).Slices ![0, off] ⟨2, ![m, n']⟩) (p : Fin m) (j : Fin n') (hj : j.val + off < n) :
    extractStridedSlice ⟨2, ![m, n']⟩ ![0, off] x h (ix2 p j) = x (ix2 p (⟨j.val + off, hj⟩ : Fin n)) := by
  refine extractStridedSlice_apply _ x h (ix2 p j) _ fun a => ?_
  match a with
  | ⟨0, _⟩ => show p.val = 0 + p.val; omega
  | ⟨1, _⟩ => show j.val + off = off + j.val; omega

/-- A slice of a matrix at row offset `o0` and column offset `o1`. -/
theorem slice2_apply {α : Type} (m n m' n' o0 o1 : Nat) (x : (⟨2, ![m, n]⟩ : Shape).Idx → α)
    (h : (⟨2, ![m, n]⟩ : Shape).Slices ![o0, o1] ⟨2, ![m', n']⟩) (p : Fin m') (j : Fin n')
    (hp : p.val + o0 < m) (hj : j.val + o1 < n) :
    extractStridedSlice ⟨2, ![m', n']⟩ ![o0, o1] x h (ix2 p j) = x (ix2 (⟨p.val + o0, hp⟩ : Fin m) (⟨j.val + o1, hj⟩ : Fin n)) := by
  refine extractStridedSlice_apply _ x h (ix2 p j) _ fun a => ?_
  match a with
  | ⟨0, _⟩ => show p.val + o0 = o0 + p.val; omega
  | ⟨1, _⟩ => show j.val + o1 = o1 + j.val; omega

/-- The transpose of a matrix. -/
theorem transpose2_apply {α : Type} (m n : Nat) (x : (⟨2, ![m, n]⟩ : Shape).Idx → α)
    (h : (⟨2, ![m, n]⟩ : Shape).Transposes [1, 0] ⟨2, ![n, m]⟩) (k : Fin n) (j : Fin m) :
    transpose ⟨2, ![n, m]⟩ [1, 0] x h (ix2 k j) = x (ix2 j k) :=
  transpose_apply [1, 0] x h (ix2 k j) (ix2 j k) (fun b => match b with
    | ⟨0, _⟩ => rfl
    | ⟨1, _⟩ => rfl)

/-- A vector laid out as a single row. -/
theorem rowOfVec_apply {α : Type} (n : Nat) (x : (⟨1, ![n]⟩ : Shape).Idx → α)
    (h : (⟨1, ![n]⟩ : Shape).ShapeCasts ⟨2, ![1, n]⟩) (j : Fin n) :
    shapeCast ⟨2, ![1, n]⟩ x h (ix2 (0 : Fin 1) j) = x (ix1 j) := by
  refine shapeCast_apply x h _ _ ?_
  rw [Shape.rowMajor_val_one, Shape.rowMajor_val_two]
  show j.val = (0 : Nat) * n + j.val
  omega

/-- A sum over `a + b` terms is the sum of the first `a` plus the sum of the last `b`. -/
theorem sum_two_runs {M : Type} [AddCommMonoid M] (a b : Nat) (f : Fin (a + b) → M) :
    ∑ k, f k = (∑ k : Fin a, f ⟨k.val, by omega⟩) + ∑ k : Fin b, f ⟨k.val + a, by omega⟩ := by
  rw [Fin.sum_univ_add]
  congr 1
  refine Finset.sum_congr rfl fun k _ => congrArg f (Fin.ext ?_)
  simp [Fin.natAdd, Nat.add_comm]

end Idealize.ShloMosaic.MatrixReads

end
-- ==== Proof.KernelPayloads.lean ====
/-
  The kernel body's three pure values read at a row and a column, on the extended reals.

  The reset value is zero everywhere. The accumulator update at row `a` and column `b` is the old accumulator there
  plus `Σₜ x[a, t] · w[t, b]` over the 1024 contraction coordinates: the two narrowing format changes and the
  same-shape casts are the identity on extended reals, and the product into a zero accumulator is the plain sum of
  products. The output value there is the hyperbolic tangent of the accumulator plus the bias row's entry at column `b`:
  the single bias row is broadcast down the 512 rows.
-/
import proofs.«103931_j84181359001849_1_alg».proof.Proof.Gen.KernelIdeal.Skeleton
import proofs.«103931_j84181359001849_1_alg».proof.Proof.LibPlainDot
import proofs.«103931_j84181359001849_1_alg».proof.Proof.LibMatrixReads
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Payloads

open Idealize.ShloMosaic Idealize.ShloMosaic.ValueIdx Idealize.SL.Sem
open Cert.KernelIdeal Cert.KernelIdeal.Gen

/-- The reset value is zero at every row and column. -/
theorem pay1_apply (a : Fin 512) (b : Fin 1024) : k0_pay1 (F := Ideal) (ix2 a b) = 0 := by
  unfold k0_pay1
  refine (congrFun (shapeCast_self _ _) (ix2 a b)).trans ?_
  exact Ideal.ofBits_zero_f32

/-- The accumulator update at `(a, b)`: the old accumulator plus the row of `x0` against the column of `x1`. -/
theorem pay2_apply (x0 : Vec Ideal S512x1024 .f32) (x1 : Vec Ideal S1024x1024 .f32) (acc : Vec Ideal S512x1024 .f32) (a : Fin 512) (b : Fin 1024) :
    k0_pay2 (F := Ideal) x0 x1 acc (ix2 a b) = acc (ix2 a b) + ∑ t : Fin 1024, x0 (ix2 a t) * x1 (ix2 t b) := by
  unfold k0_pay2
  refine (congrFun (shapeCast_self _ _) (ix2 a b)).trans ?_
  refine congrArg (acc (ix2 a b) + ·) ?_
  refine (PlainDot.matmul_zero_apply (φ₁ := .bf16) (φ₂ := .bf16) 512 1024 1024 none
    (truncf FTy.bf16 (shapeCast S512x1024 x0 shapeCasts_S512x1024_S512x1024) bitsLt_bf16_f32)
    (truncf FTy.bf16 (shapeCast S1024x1024 x1 shapeCasts_S1024x1024_S1024x1024) bitsLt_bf16_f32) a b).trans ?_
  refine Finset.sum_congr rfl fun t _ => ?_
  rw [truncf_apply, truncf_apply, shapeCast_self, shapeCast_self]

/-- The output value at `(a, b)`: the hyperbolic tangent of the accumulator plus the bias at column `b`. -/
theorem pay3_apply (x2 : Vec Ideal S1x1024 .f32) (acc : Vec Ideal S512x1024 .f32) (a : Fin 512) (b : Fin 1024) :
    k0_pay3 (F := Ideal) x2 acc (ix2 a b) = Ideal.tanh (acc (ix2 a b) + x2 (ix2 (0 : Fin 1) b)) := by
  unfold k0_pay3
  refine congrArg (fun z => Ideal.tanh (acc (ix2 a b) + z)) ?_
  refine (MatrixReads.rowBroadcast_apply 512 1024 _ _ a b).trans ?_
  refine (congrFun (shapeCast_self _ _) _).trans ?_
  exact congrFun (shapeCast_self _ _) _

end Cert.KernelIdeal.Payloads

end
-- ==== Proof.KernelFold.lean ====
/-
  The accumulator after each point, and the block the last reduction step writes back.

  At position `n` the body adds to the accumulator, entry by entry, the product of the point's two blocks:
  `Σₖ xblk[a, k] · wblk[k, b]` over the block's 1024 inner positions. At the first step of a run of 20 points the
  accumulator is reset to zero first. So after the point at position `t` the accumulator holds zero plus the addends of
  the points `20·(t / 20) … t` of its run, and at a last step (`t % 20 = 19`) the block written back is
  `tanh (accumulator + bias block)`.
-/
import proofs.«103931_j84181359001849_1_alg».proof.Proof.KernelBlocks
import proofs.«103931_j84181359001849_1_alg».proof.Proof.KernelPieces
import proofs.«103931_j84181359001849_1_alg».proof.Proof.KernelPayloads
import proofs.«103931_j84181359001849_1_alg».proof.Proof.Gen.KernelIdeal.Value
import Idealize.ShloMosaic.Lib.Pipeline.Value

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- What the point at position `n` adds to entry `i` of the accumulator (nothing past the grid). -/
def addend (c : Dev nD) (n : ℕ) (i : S512x1024.Idx) : EReal :=
  if h : n < cfg0.N then
    ∑ k : Fin 1024, xblk m c ⟨n, h⟩ (ix2 (i 0 : Fin 512) k) * wblk m c ⟨n, h⟩ (ix2 k (i 1 : Fin 1024))
  else 0

/-- One accumulating store, entry by entry: what was there plus the point's addend. -/
theorem step_apply (c : Dev nD) (n : ℕ) (h : n < cfg0.N) (acc : Vec Ideal S512x1024 .f32) (i : S512x1024.Idx) :
    k0_pay2 (F := Ideal) (xblk m c ⟨n, h⟩) (wblk m c ⟨n, h⟩) acc i = acc i + addend m c n i := by
  obtain ⟨a, b, rfl⟩ : ∃ (a : Fin 512) (b : Fin 1024), i = ix2 a b := ⟨i 0, i 1, eq_ix2 i⟩
  rw [Cert.KernelIdeal.Payloads.pay2_apply]
  unfold addend
  rw [dif_pos h]

/-- The reset block is zero at every entry. -/
theorem reset_apply (i : S512x1024.Idx) : k0_pay1 (F := Ideal) i = 0 := by
  obtain ⟨a, b, rfl⟩ : ∃ (a : Fin 512) (b : Fin 1024), i = ix2 a b := ⟨i 0, i 1, eq_ix2 i⟩
  exact Cert.KernelIdeal.Payloads.pay1_apply a b

/-- At the first step of a run the accumulator is reset and the point's product added. -/
theorem sc_first (c : Dev nD) (n : ℕ) (hb : n < cfg0.N) (h0 : n % 20 = 0) (acc : Vec Ideal S512x1024 .f32) :
    Cert.KernelIdeal.Value.scAt0_0 m c n hb acc
      = k0_pay2 (F := Ideal) (xblk m c ⟨n, hb⟩) (wblk m c ⟨n, hb⟩) (k0_pay1 (F := Ideal)) := by
  have h1 : ¬n % 20 = 19 := by omega
  unfold Cert.KernelIdeal.Value.scAt0_0
  rw [dif_pos h0, dif_neg h1]
  exact Cert.KernelIdeal.Pieces.sout_A c (grid0.coords ⟨n, hb⟩) (ms0_0 ⟨n, hb⟩) (hs0_0 ⟨n, hb⟩) (ms0_1 ⟨n, hb⟩) (hs0_1 ⟨n, hb⟩)
    (ms0_2 ⟨n, hb⟩) (hs0_2 ⟨n, hb⟩) (ms0_3 ⟨n, hb⟩) (hs0_3 ⟨n, hb⟩) scM0_0 (Memref.isWhole_whole _) _ _
    (iblk m c 0 ⟨n, hb⟩) (iblk m c 1 ⟨n, hb⟩) (iblk m c 2 ⟨n, hb⟩)

/-- At every later step the point's product is added to what the point before left. -/
theorem sc_later (c : Dev nD) (n : ℕ) (hb : n < cfg0.N) (h0 : ¬n % 20 = 0) (acc : Vec Ideal S512x1024 .f32) :
    Cert.KernelIdeal.Value.scAt0_0 m c n hb acc
      = k0_pay2 (F := Ideal) (xblk m c ⟨n, hb⟩) (wblk m c ⟨n, hb⟩) acc := by
  unfold Cert.KernelIdeal.Value.scAt0_0
  rw [dif_neg h0]
  by_cases h1 : n % 20 = 19
  · rw [dif_pos h1]
    exact Cert.KernelIdeal.Pieces.sout_C c (grid0.coords ⟨n, hb⟩) (ms0_0 ⟨n, hb⟩) (hs0_0 ⟨n, hb⟩) (ms0_1 ⟨n, hb⟩) (hs0_1 ⟨n, hb⟩)
      (ms0_2 ⟨n, hb⟩) (hs0_2 ⟨n, hb⟩) (ms0_3 ⟨n, hb⟩) (hs0_3 ⟨n, hb⟩) scM0_0 (Memref.isWhole_whole _) _ _
      (iblk m c 0 ⟨n, hb⟩) (iblk m c 1 ⟨n, hb⟩) (iblk m c 2 ⟨n, hb⟩) acc
  · rw [dif_neg h1]
    exact Cert.KernelIdeal.Pieces.sout_B c (grid0.coords ⟨n, hb⟩) (ms0_0 ⟨n, hb⟩) (hs0_0 ⟨n, hb⟩) (ms0_1 ⟨n, hb⟩) (hs0_1 ⟨n, hb⟩)
      (ms0_2 ⟨n, hb⟩) (hs0_2 ⟨n, hb⟩) (ms0_3 ⟨n, hb⟩) (hs0_3 ⟨n, hb⟩) scM0_0 (Memref.isWhole_whole _) _ _
      (iblk m c 0 ⟨n, hb⟩) (iblk m c 1 ⟨n, hb⟩) (iblk m c 2 ⟨n, hb⟩) acc

/-- THE FOLD: after the point at position `t` the accumulator holds, at every entry, zero plus the addends of the points
    of its run up to `t`. -/
theorem scratch_eq (c : Dev nD) (t : Fin cfg0.N) (i : S512x1024.Idx) :
    (outsAt0 m c t.val t.isLt).2 i
      = 0 + ∑ s ∈ Finset.range (t.val % 20 + 1), addend m c (20 * (t.val / 20) + s) i := by
  rw [Cert.KernelIdeal.Value.soutsAt0_0_eq m c t]
  refine Pipeline.accAt_add_apply
    (fun n h => Cert.KernelIdeal.Value.scAt0_0 m c n h (VS0_0.read (Elt Ideal) VS0_0.junk))
    (Cert.KernelIdeal.Value.scAt0_0 m c) (fun _ => (0 : EReal)) (addend m c) (20 * (t.val / 20)) 19 ?_ ?_
    (t.val % 20) (by omega) _ i
  · intro h j
    show Cert.KernelIdeal.Value.scAt0_0 m c (20 * (t.val / 20)) h _ j = 0 + addend m c (20 * (t.val / 20)) j
    rw [sc_first m c _ h (by omega), step_apply, reset_apply]
  · intro n h acc j hlo hhi
    rw [sc_later m c n h (by omega) acc, step_apply]

/-- THE BLOCK WRITTEN BACK at a last reduction step: `tanh (accumulator + bias block)`, the accumulator as the point
    itself leaves it. -/
theorem flushed_last (c : Dev nD) (t : Fin cfg0.N) (h19 : t.val % 20 = 19) :
    (dats m 0 c).flushed 3 t
      = (cfg0.win 3).cut (grid0.coords t) (k0_pay3 (F := Ideal) (bblk m c t) ((outsAt0 m c t.val t.isLt).2)) := by
  have h0 : ¬t.val % 20 = 0 := by omega
  have hs : (outsAt0 m c t.val t.isLt).2
      = k0_pay2 (F := Ideal) (xblk m c t) (wblk m c t) (outsAt0 m c (t.val - 1) (Nat.lt_of_le_of_lt (Nat.sub_le _ _) t.isLt)).2 := by
    rw [outsAt0_C m c t h0 h19]
    dsimp only
    exact Cert.KernelIdeal.Pieces.sout_C c (grid0.coords t) (ms0_0 t) (hs0_0 t) (ms0_1 t) (hs0_1 t)
      (ms0_2 t) (hs0_2 t) (ms0_3 t) (hs0_3 t) scM0_0 (Memref.isWhole_whole _) (fun h => h0 ((hcond0_0 t).mp h)) ((hcond0_1 t).mpr h19)
      (iblk m c 0 t) (iblk m c 1 t) (iblk m c 2 t) (outsAt0 m c (t.val - 1) (Nat.lt_of_le_of_lt (Nat.sub_le _ _) t.isLt)).2
  rw [Cert.KernelIdeal.Value.flushed3_C m c t h0 h19, hs]
  exact congrArg ((cfg0.win 3).cut (grid0.coords t))
    (Cert.KernelIdeal.Pieces.out_C c (grid0.coords t) (ms0_0 t) (hs0_0 t) (ms0_1 t) (hs0_1 t)
      (ms0_2 t) (hs0_2 t) (ms0_3 t) (hs0_3 t) scM0_0 (Memref.isWhole_whole _) (fun h => h0 ((hcond0_0 t).mp h)) ((hcond0_1 t).mpr h19)
      (iblk m c 0 t) (iblk m c 1 t) (iblk m c 2 t) (outsAt0 m c (t.val - 1) (Nat.lt_of_le_of_lt (Nat.sub_le _ _) t.isLt)).2)

end Cert.KernelIdeal.Hand

end
-- ==== Proof.LibIndexWrap.lean ====
import Idealize.ShloMosaic.PureOps
import Idealize.ShloMosaic.Lib.ValueIdx
import Idealize.ShloMosaic.Lib.Pipeline.Value

/-!
# A signed index wrapped by its axis extent, and the two-column index array built from it

An index array `ind : i32[N, 2]` is turned into scatter start indices column by column: column `k` is cut out
(`N × 1`), flattened to `N`, every negative entry has the axis extent `H_k` added to it, the result is made an
`N × 1` column again and the two columns are joined along axis 1. Read at row `j`, the joined array holds the
wrapped entry of each column: nothing else of `ind` is looked at, and no index set is enumerated.
-/

namespace Idealize.ShloMosaic.IndexWrap

open Idealize.ShloMosaic Idealize.ShloMosaic.ValueIdx

/-- One index wrapped by the extent `H`: `v + H` where `v` is negative as a signed word, `v` otherwise. Spelled with
    the scalar operations a pointwise `select (cmpi slt · 0) (addi · H) ·` applies at each element, so that the array
    form below reads at an element as `wrap` by unfolding alone; `wrap_eq_ite` is the `if` form. -/
def wrap (H v : BitVec 32) : BitVec 32 :=
  Scalar.select (IntOp.cmpi .slt v 0#32) (IntOp.addi v H) v

/-- `wrap` as a conditional on the signed comparison with zero. -/
theorem wrap_eq_ite (H v : BitVec 32) : wrap H v = if v.slt 0#32 then v + H else v := by
  unfold wrap Scalar.select IntOp.cmpi IntOp.addi
  cases h : v.slt 0#32
  · rfl
  · rfl

/-- A non-negative index is left alone, whatever the extent. -/
theorem wrap_of_nonneg (H v : BitVec 32) (h : 0 ≤ v.toInt) : wrap H v = v := by
  rw [wrap_eq_ite]
  have hs : v.slt 0#32 = false := by
    rw [BitVec.slt, BitVec.toInt_zero]
    exact decide_eq_false (Int.not_lt.mpr h)
  rw [hs]
  rfl

/-- A negative index has the extent added. -/
theorem wrap_of_neg (H v : BitVec 32) (h : v.toInt < 0) : wrap H v = v + H := by
  rw [wrap_eq_ite]
  have hs : v.slt 0#32 = true := by
    rw [BitVec.slt, BitVec.toInt_zero]
    exact decide_eq_true h
  rw [hs]
  rfl

section Columns
variable {N : Nat}

/-- Column `k` of an `N × 2` array, cut out and flattened, read at `j`: the array at `(j, k)`. -/
theorem column_apply (o : Nat) (ind : IVec ⟨2, ![N, 2]⟩ 32)
    (hs : (⟨2, ![N, 2]⟩ : Shape).Slices ![0, o] ⟨2, ![N, 1]⟩)
    (hc : (⟨2, ![N, 1]⟩ : Shape).ShapeCasts ⟨1, ![N]⟩) (j : Fin N) (k : Fin 2) (hk : k.val = o) :
    shapeCast ⟨1, ![N]⟩ (extractStridedSlice ⟨2, ![N, 1]⟩ ![0, o] ind hs) hc (ix1 j) = ind (ix2 j k) := by
  refine (shapeCast_apply _ hc (ix1 j) (ix2 j (0 : Fin 1)) ?_).trans ?_
  · rw [Shape.rowMajor_val_two, Shape.rowMajor_val_one]
    show j.val * 1 + 0 = j.val
    omega
  · refine extractStridedSlice_apply ![0, o] ind hs (ix2 j (0 : Fin 1)) (ix2 j k) fun a => ?_
    match a with
    | ⟨0, _⟩ => exact (Nat.zero_add _).symm
    | ⟨1, _⟩ => show k.val = o + 0; omega

/-- A scalar constant broadcast to a vector reads as the constant everywhere. -/
theorem splat_apply (c : BitVec 32) (hb : (⟨0, ![]⟩ : Shape).BroadcastsInDim ⟨1, ![N]⟩ (![] : Fin 0 → Fin 1))
    (i : (⟨1, ![N]⟩ : Shape).Idx) :
    broadcastInDim (⟨1, ![N]⟩ : Shape) (![] : Fin 0 → Fin 1) hb (constantI ⟨0, ![]⟩ 32 c) i = c := rfl

/-- A vector made an `N × 1` column reads, at `(j, 0)`, the vector at `j`. -/
theorem asColumn_apply {α : Type} (v : (⟨1, ![N]⟩ : Shape).Idx → α)
    (hb : (⟨1, ![N]⟩ : Shape).BroadcastsInDim ⟨2, ![N, 1]⟩ (![0] : Fin 1 → Fin 2)) (j : Fin N) (u : Fin 1) :
    broadcastInDim (⟨2, ![N, 1]⟩ : Shape) (![0] : Fin 1 → Fin 2) hb v (ix2 j u) = v (ix1 j) := by
  refine broadcastInDim_apply _ hb v (ix2 j u) (ix1 j) fun a => ?_
  match a with
  | ⟨0, _⟩ =>
    show j.val = if N = 1 then 0 else j.val
    have := j.isLt
    split <;> omega

/-- The wrapped column `k`, as the program spells it, read at `j`. -/
theorem wrappedColumn_apply (o : Nat) (H : BitVec 32) (ind : IVec ⟨2, ![N, 2]⟩ 32)
    (hs : (⟨2, ![N, 2]⟩ : Shape).Slices ![0, o] ⟨2, ![N, 1]⟩)
    (hc : (⟨2, ![N, 1]⟩ : Shape).ShapeCasts ⟨1, ![N]⟩)
    (hb : (⟨0, ![]⟩ : Shape).BroadcastsInDim ⟨1, ![N]⟩ (![] : Fin 0 → Fin 1))
    (j : Fin N) (k : Fin 2) (hk : k.val = o) :
    select
        (cmpi .slt (shapeCast ⟨1, ![N]⟩ (extractStridedSlice ⟨2, ![N, 1]⟩ ![0, o] ind hs) hc)
          (broadcastInDim (⟨1, ![N]⟩ : Shape) (![] : Fin 0 → Fin 1) hb (constantI ⟨0, ![]⟩ 32 0#32)))
        (addi (shapeCast ⟨1, ![N]⟩ (extractStridedSlice ⟨2, ![N, 1]⟩ ![0, o] ind hs) hc)
          (broadcastInDim (⟨1, ![N]⟩ : Shape) (![] : Fin 0 → Fin 1) hb (constantI ⟨0, ![]⟩ 32 H)))
        (shapeCast ⟨1, ![N]⟩ (extractStridedSlice ⟨2, ![N, 1]⟩ ![0, o] ind hs) hc) (ix1 j)
      = wrap H (ind (ix2 j k)) := by
  show Scalar.select (IntOp.cmpi .slt (shapeCast ⟨1, ![N]⟩ (extractStridedSlice ⟨2, ![N, 1]⟩ ![0, o] ind hs) hc (ix1 j)) 0#32)
      (IntOp.addi (shapeCast ⟨1, ![N]⟩ (extractStridedSlice ⟨2, ![N, 1]⟩ ![0, o] ind hs) hc (ix1 j)) H)
      (shapeCast ⟨1, ![N]⟩ (extractStridedSlice ⟨2, ![N, 1]⟩ ![0, o] ind hs) hc (ix1 j)) = _
  rw [column_apply o ind hs hc j k hk]
  rfl

/-- The joined array of the two wrapped columns, as the programs print it, read at row `j`: column 0 holds the row
    index wrapped by `H₀`, column 1 the column index wrapped by `H₁`. -/
theorem wrapped_pair_apply (H₀ H₁ : BitVec 32) (ind : IVec ⟨2, ![N, 2]⟩ 32)
    (hs0 : (⟨2, ![N, 2]⟩ : Shape).Slices ![0, 0] ⟨2, ![N, 1]⟩)
    (hs1 : (⟨2, ![N, 2]⟩ : Shape).Slices ![0, 1] ⟨2, ![N, 1]⟩)
    (hc : (⟨2, ![N, 1]⟩ : Shape).ShapeCasts ⟨1, ![N]⟩)
    (hb : (⟨0, ![]⟩ : Shape).BroadcastsInDim ⟨1, ![N]⟩ (![] : Fin 0 → Fin 1))
    (hcol : (⟨1, ![N]⟩ : Shape).BroadcastsInDim ⟨2, ![N, 1]⟩ (![0] : Fin 1 → Fin 2))
    (hcat : Shape.Concatenates [(⟨2, ![N, 1]⟩ : Shape), ⟨2, ![N, 1]⟩] ⟨2, ![N, 2]⟩ 1) (j : Fin N) :
    (concatenate (⟨2, ![N, 2]⟩ : Shape) 1
        [⟨(⟨2, ![N, 1]⟩ : Shape), broadcastInDim (⟨2, ![N, 1]⟩ : Shape) (![0] : Fin 1 → Fin 2) hcol
            (select
              (cmpi .slt (shapeCast ⟨1, ![N]⟩ (extractStridedSlice ⟨2, ![N, 1]⟩ ![0, 0] ind hs0) hc)
                (broadcastInDim (⟨1, ![N]⟩ : Shape) (![] : Fin 0 → Fin 1) hb (constantI ⟨0, ![]⟩ 32 0#32)))
              (addi (shapeCast ⟨1, ![N]⟩ (extractStridedSlice ⟨2, ![N, 1]⟩ ![0, 0] ind hs0) hc)
                (broadcastInDim (⟨1, ![N]⟩ : Shape) (![] : Fin 0 → Fin 1) hb (constantI ⟨0, ![]⟩ 32 H₀)))
              (shapeCast ⟨1, ![N]⟩ (extractStridedSlice ⟨2, ![N, 1]⟩ ![0, 0] ind hs0) hc))⟩,
         ⟨(⟨2, ![N, 1]⟩ : Shape), broadcastInDim (⟨2, ![N, 1]⟩ : Shape) (![0] : Fin 1 → Fin 2) hcol
            (select
              (cmpi .slt (shapeCast ⟨1, ![N]⟩ (extractStridedSlice ⟨2, ![N, 1]⟩ ![0, 1] ind hs1) hc)
                (broadcastInDim (⟨1, ![N]⟩ : Shape) (![] : Fin 0 → Fin 1) hb (constantI ⟨0, ![]⟩ 32 0#32)))
              (addi (shapeCast ⟨1, ![N]⟩ (extractStridedSlice ⟨2, ![N, 1]⟩ ![0, 1] ind hs1) hc)
                (broadcastInDim (⟨1, ![N]⟩ : Shape) (![] : Fin 0 → Fin 1) hb (constantI ⟨0, ![]⟩ 32 H₁)))
              (shapeCast ⟨1, ![N]⟩ (extractStridedSlice ⟨2, ![N, 1]⟩ ![0, 1] ind hs1) hc))⟩]
        hcat (ix2 j (0 : Fin 2)) = wrap H₀ (ind (ix2 j 0)))
    ∧ (concatenate (⟨2, ![N, 2]⟩ : Shape) 1
        [⟨(⟨2, ![N, 1]⟩ : Shape), broadcastInDim (⟨2, ![N, 1]⟩ : Shape) (![0] : Fin 1 → Fin 2) hcol
            (select
              (cmpi .slt (shapeCast ⟨1, ![N]⟩ (extractStridedSlice ⟨2, ![N, 1]⟩ ![0, 0] ind hs0) hc)
                (broadcastInDim (⟨1, ![N]⟩ : Shape) (![] : Fin 0 → Fin 1) hb (constantI ⟨0, ![]⟩ 32 0#32)))
              (addi (shapeCast ⟨1, ![N]⟩ (extractStridedSlice ⟨2, ![N, 1]⟩ ![0, 0] ind hs0) hc)
                (broadcastInDim (⟨1, ![N]⟩ : Shape) (![] : Fin 0 → Fin 1) hb (constantI ⟨0, ![]⟩ 32 H₀)))
              (shapeCast ⟨1, ![N]⟩ (extractStridedSlice ⟨2, ![N, 1]⟩ ![0, 0] ind hs0) hc))⟩,
         ⟨(⟨2, ![N, 1]⟩ : Shape), broadcastInDim (⟨2, ![N, 1]⟩ : Shape) (![0] : Fin 1 → Fin 2) hcol
            (select
              (cmpi .slt (shapeCast ⟨1, ![N]⟩ (extractStridedSlice ⟨2, ![N, 1]⟩ ![0, 1] ind hs1) hc)
                (broadcastInDim (⟨1, ![N]⟩ : Shape) (![] : Fin 0 → Fin 1) hb (constantI ⟨0, ![]⟩ 32 0#32)))
              (addi (shapeCast ⟨1, ![N]⟩ (extractStridedSlice ⟨2, ![N, 1]⟩ ![0, 1] ind hs1) hc)
                (broadcastInDim (⟨1, ![N]⟩ : Shape) (![] : Fin 0 → Fin 1) hb (constantI ⟨0, ![]⟩ 32 H₁)))
              (shapeCast ⟨1, ![N]⟩ (extractStridedSlice ⟨2, ![N, 1]⟩ ![0, 1] ind hs1) hc))⟩]
        hcat (ix2 j (1 : Fin 2)) = wrap H₁ (ind (ix2 j 1))) := by
  constructor
  · refine (concatenate_pair_apply_left 1 _ _ hcat (ix2 j (0 : Fin 2)) rfl (ix2 j (0 : Fin 1)) fun b => ?_).trans ?_
    · match b with
      | ⟨0, _⟩ => rfl
      | ⟨1, _⟩ => rfl
    · rw [asColumn_apply _ hcol j (0 : Fin 1)]
      exact wrappedColumn_apply 0 H₀ ind hs0 hc hb j 0 rfl
  · refine (concatenate_pair_apply_right 1 _ _ hcat (ix2 j (1 : Fin 2)) rfl rfl (ix2 j (0 : Fin 1)) (fun b hb' => ?_) ?_).trans ?_
    · match b with
      | ⟨0, _⟩ => rfl
      | ⟨1, _⟩ => exact absurd rfl hb'
    · rfl
    · rw [asColumn_apply _ hcol j (0 : Fin 1)]
      exact wrappedColumn_apply 1 H₁ ind hs1 hc hb j 1 rfl

end Columns

end Idealize.ShloMosaic.IndexWrap
-- ==== Proof.KerIndex.lean ====
import proofs.«103931_j84181359001849_1_alg».proof.Proof.Gen.KernelIdeal.Launch
import proofs.«103931_j84181359001849_1_alg».proof.Proof.LibIndexWrap

/-!
# The kernel's scatter start indices, read at a row

The kernel's host program joins the two wrapped index columns (rows wrapped by the padded extent 20480, columns by
4096) into the array its scatter reads. At row `j` that array holds the two entries of `ind` at row `j`, each
wrapped by its extent.
-/

noncomputable section

namespace Cert.KernelIdeal.Hand

open Cert.KernelIdeal Cert.KernelIdeal.Gen Idealize.ShloMosaic Idealize.ShloMosaic.ValueIdx

/-- The scatter's start indices as the kernel's host program computes them from the raw index array: each column is
    cut out, flattened, wrapped by its extent where negative (rows by 20480, columns by 4096), made a column again, and
    the two columns are joined. -/
def kerIdx (ind : IVec S2000000x2 32) : IVec S2000000x2 32 :=
  concatenate S2000000x2 1
    [⟨S2000000x1, broadcastInDim S2000000x1 ![0] bcast_S2000000_S2000000x1_0
        (select
          (cmpi .slt (shapeCast _ (extractStridedSlice S2000000x1 ![0, 0] ind slices_S2000000x2_S2000000x1_0_0) shapeCasts_S2000000x1_S2000000)
            (broadcastInDim S2000000 ![] bcast_S_S2000000 (constantI S_ 32 0#32)))
          (addi (shapeCast _ (extractStridedSlice S2000000x1 ![0, 0] ind slices_S2000000x2_S2000000x1_0_0) shapeCasts_S2000000x1_S2000000)
            (broadcastInDim S2000000 ![] bcast_S_S2000000 (constantI S_ 32 20480#32)))
          (shapeCast _ (extractStridedSlice S2000000x1 ![0, 0] ind slices_S2000000x2_S2000000x1_0_0) shapeCasts_S2000000x1_S2000000))⟩,
     ⟨S2000000x1, broadcastInDim S2000000x1 ![0] bcast_S2000000_S2000000x1_0
        (select
          (cmpi .slt (shapeCast _ (extractStridedSlice S2000000x1 ![0, 1] ind slices_S2000000x2_S2000000x1_0_1) shapeCasts_S2000000x1_S2000000)
            (broadcastInDim S2000000 ![] bcast_S_S2000000 (constantI S_ 32 0#32)))
          (addi (shapeCast _ (extractStridedSlice S2000000x1 ![0, 1] ind slices_S2000000x2_S2000000x1_0_1) shapeCasts_S2000000x1_S2000000)
            (broadcastInDim S2000000 ![] bcast_S_S2000000 (constantI S_ 32 4096#32)))
          (shapeCast _ (extractStridedSlice S2000000x1 ![0, 1] ind slices_S2000000x2_S2000000x1_0_1) shapeCasts_S2000000x1_S2000000))⟩]
    concatenates_S2000000x1_S2000000x1_S2000000x2_d1

/-- The kernel's start-index array at row `j`: the row index wrapped by 20480, the column index by 4096. -/
theorem ker_idx (ind : IVec S2000000x2 32) (j : Fin 2000000) :
    kerIdx ind (ix2 j 0) = IndexWrap.wrap 20480#32 (ind (ix2 j 0))
    ∧ kerIdx ind (ix2 j 1) = IndexWrap.wrap 4096#32 (ind (ix2 j 1)) :=
  IndexWrap.wrapped_pair_apply 20480#32 4096#32 ind slices_S2000000x2_S2000000x1_0_0 slices_S2000000x2_S2000000x1_0_1
    shapeCasts_S2000000x1_S2000000 bcast_S_S2000000 bcast_S2000000_S2000000x1_0
    concatenates_S2000000x1_S2000000x1_S2000000x2_d1 j

end Cert.KernelIdeal.Hand

end
-- ==== Proof.KernelHost.lean ====
/- What the kernel's region finds in its three input arrays: the left operand padded with 480 zero columns,
   the bias laid as one row, and the dense table built by a scatter-add into 20480 rows. -/
import proofs.«103931_j84181359001849_1_alg».proof.Proof.Gen.KernelIdeal.Frame
import Idealize.ShloMosaic.Lib.StableHlo.Run
import Idealize.ShloMosaic.Lib.KernelVsHost
import proofs.«103931_j84181359001849_1_alg».proof.Proof.KerIndex

set_option maxRecDepth 16384

noncomputable section

namespace Cert.KernelIdeal.Hand

open Cert.KernelIdeal Cert.KernelIdeal.Gen Idealize.ShloMosaic Idealize.ShloMosaic.TcCoe Idealize.ShloMosaic.Tactic
  Idealize.SL.Sem Idealize.ShloMosaic.StableHlo Idealize.ShloMosaic.ValueIdx

variable (m : (ℓ : Loc nD τ sig) → Buf (Elt Ideal) ℓ)

/-- The left operand as the region finds it: x padded on the right of axis 1 with 480 columns of the converted
    integer zero. -/
theorem V_xpad (c : Dev nD) :
    (V m c main_v19 : S2048x20480.Idx → EReal)
      = pad S2048x20480 ![0, 0] ![0, 480] ![0, 0] (m ((c : Thread nD τ).loc main_arg0))
          (sitofp (F := Ideal) .f32 (constantI S_ 32 0#32)) pads_S2048x20000_S2048x20480_000_04800 h_S_ := by
  dsimp only [Gen.V]
  simp only [Gen.hostOps0, Gen.hostOps0_1, Gen.hostOps0_2, List.flatten_cons, List.flatten_nil, List.append_nil,
    List.cons_append, List.nil_append]
  after_results
  rfl

/-- A pad of 480 columns on the right, read at a column below 20000, is the operand there. -/
theorem pad_right_lt (x : S2048x20000.Idx → EReal) (v : S_.Idx → EReal) (p : Fin 2048) (k : Fin 20480)
    (hk : k.val < 20000) :
    pad S2048x20480 ![0, 0] ![0, 480] ![0, 0] x v pads_S2048x20000_S2048x20480_000_04800 h_S_ (ix2 p k)
      = x (ix2 p ⟨k.val, hk⟩) :=
  pad_apply_of_inside ![0, 0] ![0, 480] ![0, 0] x v pads_S2048x20000_S2048x20480_000_04800 h_S_ (ix2 p k)
    (ix2 p ⟨k.val, hk⟩) (fun a => match a with
      | ⟨0, _⟩ => by show p.val = 0 + p.val * (0 + 1); omega
      | ⟨1, _⟩ => by show k.val = 0 + k.val * (0 + 1); omega)

/-- A pad of 480 columns on the right, read at a column from 20000 on, is the padding value. -/
theorem pad_right_ge (x : S2048x20000.Idx → EReal) (v : S_.Idx → EReal) (p : Fin 2048) (k : Fin 20480)
    (hk : 20000 ≤ k.val) :
    pad S2048x20480 ![0, 0] ![0, 480] ![0, 0] x v pads_S2048x20000_S2048x20480_000_04800 h_S_ (ix2 p k)
      = v (Shape.Idx.first h_S_) :=
  pad_apply_of_not_inside ![0, 0] ![0, 480] ![0, 0] x v pads_S2048x20000_S2048x20480_000_04800 h_S_ (ix2 p k)
    (1 : Fin 2) (fun h => by
      have h3 : (k.val - 0) / (0 + 1) < 20000 := h.2.2
      omega)

/-- Below column 20000 the region finds x itself. -/
theorem xpad_apply_lt (c : Dev nD) (p : Fin 2048) (k : Fin 20480) (hk : k.val < 20000) :
    (V m c main_v19 : S2048x20480.Idx → EReal) (ix2 p k) = m ((c : Thread nD τ).loc main_arg0) (ix2 p ⟨k.val, hk⟩) := by
  have e := congrFun (V_xpad m c) (ix2 p k)
  exact e.trans (pad_right_lt _ _ p k hk)

/-- From column 20000 on the region finds zero. -/
theorem xpad_apply_ge (c : Dev nD) (p : Fin 2048) (k : Fin 20480) (hk : 20000 ≤ k.val) :
    (V m c main_v19 : S2048x20480.Idx → EReal) (ix2 p k) = (0 : EReal) := by
  have e := congrFun (V_xpad m c) (ix2 p k)
  refine e.trans ((pad_right_ge _ _ p k hk).trans ?_)
  exact sitofp_zero (φ := .f32)

/-- The bias as the region finds it: the vector laid as one row. -/
theorem V_bias_eq (c : Dev nD) :
    (V m c main_v20 : S1x4096.Idx → EReal)
      = shapeCast S1x4096 (m ((c : Thread nD τ).loc main_arg2)) shapeCasts_S4096_S1x4096 := by
  dsimp only [Gen.V]
  simp only [Gen.hostOps0, Gen.hostOps0_1, Gen.hostOps0_2, List.flatten_cons, List.flatten_nil, List.append_nil,
    List.cons_append, List.nil_append]
  after_results
  rfl

/-- The one row of the bias, at column q, is the bias at q. -/
theorem V_bias (c : Dev nD) (q : Fin 4096) :
    (V m c main_v20 : S1x4096.Idx → EReal) (ix2 (0 : Fin 1) q) = m ((c : Thread nD τ).loc main_arg2) (ix1 q) := by
  have e := congrFun (V_bias_eq m c) (ix2 (0 : Fin 1) q)
  refine e.trans (shapeCast_apply _ shapeCasts_S4096_S1x4096 (ix2 (0 : Fin 1) q) (ix1 q) ?_)
  rw [Shape.rowMajor_val_two, Shape.rowMajor_val_one]
  show q.val = (0 : Fin 1).val * 4096 + q.val
  simp

/-- The dense table as the region finds it: a scatter-add of the values into 20480 rows of zeros, at the index pairs
    each wrapped by its extent (rows by 20480, columns by 4096). -/
theorem V_table (c : Dev nD) :
    (V m c main_v18 : S20480x4096.Idx → EReal)
      = Host.scatterAdd (F := Ideal) scatter_S20480x4096_S2000000x2_S2000000_n_01_01_1
          (broadcastInDim S20480x4096 ![] bcast_S_S20480x4096 (constant (F := Ideal) S_ .f32 0x00000000#32))
          (kerIdx (m ((c : Thread nD τ).loc main_arg3)))
          (m ((c : Thread nD τ).loc main_arg1)) := by
  dsimp only [Gen.V]
  simp only [Gen.hostOps0, Gen.hostOps0_1, Gen.hostOps0_2, List.flatten_cons, List.flatten_nil, List.append_nil,
    List.cons_append, List.nil_append]
  after_results_simp
  unfold kerIdx
  refine congrArg (fun z => Host.scatterAdd (F := Ideal) scatter_S20480x4096_S2000000x2_S2000000_n_01_01_1
          (broadcastInDim S20480x4096 ![] bcast_S_S20480x4096 (constant (F := Ideal) S_ .f32 0x00000000#32)) z
          (m ((c : Thread nD τ).loc main_arg1))) ?_
  refine congrArg₂ (fun (a b : IVec S2000000x1 32) => concatenate S2000000x2 1 [⟨S2000000x1, a⟩, ⟨S2000000x1, b⟩]
    concatenates_S2000000x1_S2000000x1_S2000000x2_d1) ?_ ?_
  · after_results_simp
    rfl
  · after_results_simp
    rfl

end Cert.KernelIdeal.Hand

end
-- ==== Proof.Spec.lean ====
/-
  The result both programs compute, as one function of the inputs.

  With `T` the dense 20000 × 4096 table built from the coordinate list, entry `(p, q)` of the result is
  `tanh (Σₜ x[p, t] · T[t, q] + bias[q])`, the sum over the 20000 input features, on the extended reals.
-/
import Idealize.ShloMosaic.PureOps.Ideal
import Idealize.ShloMosaic.Lib.ValueIdx

noncomputable section

open scoped BigOperators

namespace Cert.Spec

open Idealize.ShloMosaic Idealize.ShloMosaic.ValueIdx

/-- `tanh (x · T + bias)`, entry by entry. -/
def result (x : (⟨2, ![2048, 20000]⟩ : Shape).Idx → EReal) (T : (⟨2, ![20000, 4096]⟩ : Shape).Idx → EReal)
    (bias : (⟨1, ![4096]⟩ : Shape).Idx → EReal) : (⟨2, ![2048, 4096]⟩ : Shape).Idx → EReal :=
  fun i => Ideal.tanh ((∑ t : Fin 20000, x (ix2 (i 0 : Fin 2048) t) * T (ix2 t (i 1 : Fin 4096))) + bias (ix1 (i 1 : Fin 4096)))

theorem result_apply (x : (⟨2, ![2048, 20000]⟩ : Shape).Idx → EReal) (T : (⟨2, ![20000, 4096]⟩ : Shape).Idx → EReal)
    (bias : (⟨1, ![4096]⟩ : Shape).Idx → EReal) (p : Fin 2048) (q : Fin 4096) :
    result x T bias (ix2 p q) = Ideal.tanh ((∑ t : Fin 20000, x (ix2 p t) * T (ix2 t q)) + bias (ix1 q)) := rfl

end Cert.Spec

end
-- ==== Proof.LibRunSums.lean ====
/-
  A column of `L·n` terms summed in `n` consecutive runs of `L`.

  An accumulating kernel never sees a whole column: at each step of its reduction axis it adds the sum of the next `L` terms
  to what it already holds. In a commutative monoid that running total is the sum of an initial segment of the column, so
  after the last run it is the whole column's sum. Nothing here needs the terms to be finite: only commutativity and
  associativity of the addition are used, and the extended reals have both.
-/
import Idealize.ShloMosaic.PureOps.Ideal.Laws

open scoped BigOperators

namespace Cert.RunSums

variable {M : Type*} [AddCommMonoid M]

/-- The first `L·b` terms plus the next run of `L` are the first `L·(b+1)` terms. -/
theorem add_next_run (L : ℕ) (g : ℕ → M) (b : ℕ) :
    ∑ k ∈ Finset.range (L * b), g k + ∑ r : Fin L, g (L * b + r.val)
      = ∑ k ∈ Finset.range (L * (b + 1)), g k := by
  rw [Nat.mul_succ, Finset.sum_range_add, Finset.sum_range (fun x => g (L * b + x))]

/-- The first run by itself is the first `L` terms. -/
theorem first_run (L : ℕ) (g : ℕ → M) :
    ∑ r : Fin L, g (L * 0 + r.val) = ∑ k ∈ Finset.range (L * (0 + 1)), g k := by
  rw [Nat.zero_add, Nat.mul_one, Finset.sum_range]
  exact Finset.sum_congr rfl fun r _ => by rw [Nat.mul_zero, Nat.zero_add]

/-- The first `N` terms, listed by position, are the sum over the `N` positions. -/
theorem whole_column (N : ℕ) (g : ℕ → M) : ∑ k ∈ Finset.range N, g k = ∑ k : Fin N, g k.val :=
  Finset.sum_range g

end Cert.RunSums
-- ==== Proof.Sums.lean ====
/-
  A column of 20480 products summed in 20 runs of 1024, when the last 480 terms vanish.

  The kernel adds, at each of its 20 reduction steps, the sum of the next 1024 products of a row of the padded input
  with a column of the padded table. Over the extended reals addition is commutative and associative, so the 20 partial
  sums together are the sum of all 20480 products; the last 480 of them have a padding zero as their left factor, so
  they vanish and what remains is the sum of the first 20000: the reference's contraction. No finiteness is used.
-/
import proofs.«103931_j84181359001849_1_alg».proof.Proof.LibRunSums
import Mathlib.Algebra.BigOperators.Fin
import Mathlib.Algebra.BigOperators.Intervals

open scoped BigOperators

namespace Cert.Sums

variable {M : Type*} [AddCommMonoid M]

/-- `n` runs of `L` consecutive terms are the first `L·n` terms. -/
theorem runs_eq_range (L : ℕ) (g : ℕ → M) : ∀ n : ℕ,
    ∑ s ∈ Finset.range n, ∑ r : Fin L, g (L * s + r.val) = ∑ k ∈ Finset.range (L * n), g k
  | 0 => by simp
  | n + 1 => by
    rw [Finset.sum_range_succ, runs_eq_range L g n, Cert.RunSums.add_next_run]

/-- The first `a + b` terms, when the last `b` vanish, are the first `a`. -/
theorem range_drop_tail (a b : ℕ) (g : ℕ → M) (h : ∀ k, a ≤ k → k < a + b → g k = 0) :
    ∑ k ∈ Finset.range (a + b), g k = ∑ k ∈ Finset.range a, g k := by
  rw [Finset.sum_range_add]
  have : ∑ x ∈ Finset.range b, g (a + x) = 0 :=
    Finset.sum_eq_zero fun x hx => h (a + x) (Nat.le_add_right a x) (by have := Finset.mem_range.mp hx; omega)
  rw [this, add_zero]

/-- Twenty runs of 1024 terms, the terms from 20000 on being zero, are the sum over the first 20000 positions. -/
theorem twenty_runs (g : ℕ → M) (h : ∀ k, 20000 ≤ k → k < 20480 → g k = 0) :
    ∑ s ∈ Finset.range 20, ∑ r : Fin 1024, g (1024 * s + r.val) = ∑ k : Fin 20000, g k.val := by
  rw [runs_eq_range 1024 g 20, show 1024 * 20 = 20000 + 480 from rfl, range_drop_tail 20000 480 g h,
    Cert.RunSums.whole_column]

end Cert.Sums
-- ==== Proof.KernelFinal.lean ====
/-
  The kernel's result array is `tanh (x · T + bias)`.

  Fix a dense table `T` that the padded table agrees with on its first 20000 rows. At a last reduction step the
  accumulator holds the twenty partial sums of a row of the padded input against a column of the padded table: together
  the sum over all 20480 inner positions, of which the last 480 have a padding zero as left factor; what remains is the
  sum over the 20000 input features, against `T`. Adding the bias entry and taking `tanh` gives the entry of the
  specification at the block's place in the array; the sixteen output blocks, each written back once at the last step of
  its run, tile the array.
-/
import proofs.«103931_j84181359001849_1_alg».proof.Proof.KernelFold
import proofs.«103931_j84181359001849_1_alg».proof.Proof.KernelHost
import proofs.«103931_j84181359001849_1_alg».proof.Proof.Spec
import proofs.«103931_j84181359001849_1_alg».proof.Proof.Sums

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The product at inner position `k` of row `P` of the padded input with column `Q` of the padded table (nothing
    past the padded extent). -/
def term (c : Dev nD) (P : Fin 2048) (Q : Fin 4096) (k : ℕ) : EReal :=
  if h : k < 20480 then xarr m c (ix2 P (⟨k, h⟩ : Fin 20480)) * warr m c (ix2 (⟨k, h⟩ : Fin 20480) Q) else 0

/-- A point's addend is the run of 1024 products its reduction step covers. -/
theorem addend_eq (c : Dev nD) (n : ℕ) (h : n < cfg0.N) (a : Fin 512) (b : Fin 1024) :
    addend m c n (ix2 a b)
      = ∑ k : Fin 1024, term m c (⟨512 * (n / 80) + a.val, by have := N320; omega⟩ : Fin 2048)
          (⟨1024 * (n / 20 % 4) + b.val, by omega⟩ : Fin 4096) (1024 * (n % 20) + k.val) := by
  unfold addend
  rw [dif_pos h]
  refine Finset.sum_congr rfl fun k _ => ?_
  show xblk m c ⟨n, h⟩ (ix2 a k) * wblk m c ⟨n, h⟩ (ix2 k b) = _
  rw [xblk_apply, wblk_apply]
  unfold term
  rw [dif_pos (by omega)]

variable (T : (⟨2, ![20000, 4096]⟩ : Shape).Idx → EReal)

/-- The entry the last step of a run writes back is the specification's entry at the block's place. -/
theorem out_value (c : Dev nD)
    (hT : ∀ (k : Fin 20000) (q : Fin 4096), warr m c (ix2 (⟨k.val, by omega⟩ : Fin 20480) q) = T (ix2 k q))
    (t : Fin cfg0.N) (h19 : t.val % 20 = 19) (a : Fin 512) (b : Fin 1024) :
    k0_pay3 (F := Ideal) (bblk m c t) ((outsAt0 m c t.val t.isLt).2) (ix2 a b)
      = Cert.Spec.result (m ((c : Thread nD τ).loc main_arg0)) T (m ((c : Thread nD τ).loc main_arg2))
          (ix2 (⟨512 * (t.val / 80) + a.val, by have := t.isLt; have := N320; omega⟩ : Fin 2048)
            (⟨1024 * (t.val / 20 % 4) + b.val, by omega⟩ : Fin 4096)) := by
  have hN := N320
  have ht := t.isLt
  rw [Cert.KernelIdeal.Payloads.pay3_apply, scratch_eq, bblk_apply, Cert.Spec.result_apply, zero_add]
  show Ideal.tanh (_ + V m c main_v20 _) = _
  rw [V_bias]
  refine congrArg Ideal.tanh (congrArg (· + _) ?_)
  -- the twenty addends are twenty runs of 1024 products of one row with one column
  have hrun : ∀ s ∈ Finset.range (t.val % 20 + 1),
      addend m c (20 * (t.val / 20) + s) (ix2 a b)
        = ∑ k : Fin 1024, term m c (⟨512 * (t.val / 80) + a.val, by omega⟩ : Fin 2048)
            (⟨1024 * (t.val / 20 % 4) + b.val, by omega⟩ : Fin 4096) (1024 * s + k.val) := by
    intro s hs
    have hs' : s < 20 := by have := Finset.mem_range.mp hs; omega
    have hn : 20 * (t.val / 20) + s < cfg0.N := by omega
    rw [addend_eq m c _ hn a b]
    refine Finset.sum_congr rfl fun k _ => ?_
    have e1 : (⟨512 * ((20 * (t.val / 20) + s) / 80) + a.val, by omega⟩ : Fin 2048)
        = ⟨512 * (t.val / 80) + a.val, by omega⟩ := Fin.ext (by show 512 * ((20 * (t.val / 20) + s) / 80) + a.val = 512 * (t.val / 80) + a.val; omega)
    have e2 : (⟨1024 * ((20 * (t.val / 20) + s) / 20 % 4) + b.val, by omega⟩ : Fin 4096)
        = ⟨1024 * (t.val / 20 % 4) + b.val, by omega⟩ := Fin.ext (by show 1024 * ((20 * (t.val / 20) + s) / 20 % 4) + b.val = 1024 * (t.val / 20 % 4) + b.val; omega)
    have e3 : 1024 * ((20 * (t.val / 20) + s) % 20) + k.val = 1024 * s + k.val := by omega
    rw [e1, e2, e3]
  rw [Finset.sum_congr rfl hrun, show t.val % 20 + 1 = 20 from by omega]
  rw [Cert.Sums.twenty_runs (term m c _ _) (fun k h1 h2 => by
    unfold term
    rw [dif_pos h2]
    unfold xarr
    rw [xpad_apply_ge m c _ _ h1]
    exact zero_mul _)]
  refine Finset.sum_congr rfl fun k _ => ?_
  unfold term
  rw [dif_pos (by have := k.isLt; omega)]
  unfold xarr
  rw [xpad_apply_lt m c _ _ k.isLt, hT k]

/-- The same, at any entry of the block. -/
theorem out_value_idx (c : Dev nD)
    (hT : ∀ (k : Fin 20000) (q : Fin 4096), warr m c (ix2 (⟨k.val, by omega⟩ : Fin 20480) q) = T (ix2 k q))
    (t : Fin cfg0.N) (h19 : t.val % 20 = 19) (j : S512x1024.Idx) :
    k0_pay3 (F := Ideal) (bblk m c t) ((outsAt0 m c t.val t.isLt).2) j
      = Cert.Spec.result (m ((c : Thread nD τ).loc main_arg0)) T (m ((c : Thread nD τ).loc main_arg2))
          (ix2 (⟨512 * (t.val / 80) + (j 0).val, by have := t.isLt; have := N320; have := idx2_lt0 j; omega⟩ : Fin 2048)
            (⟨1024 * (t.val / 20 % 4) + (j 1).val, by have := idx2_lt1 j; omega⟩ : Fin 4096)) := by
  obtain ⟨a, b, rfl⟩ : ∃ (a : Fin 512) (b : Fin 1024), j = ix2 a b := ⟨j 0, j 1, eq_ix2 j⟩
  exact out_value m T c hT t h19 a b

/-- An entry of the output block at position `t`, read out of any array of the result's shape, is the array's entry
    at row `512·(t/80) + j₀` and column `1024·((t/20)%4) + j₁`. -/
theorem read_out_blk (G : S2048x4096.Idx → EReal) (t : Fin cfg0.N) (j : ((cfg0.win 3).xblock (grid0.coords t)).Idx) :
    ((cfg0.win 3).blk t).view.read (Elt Ideal) G j
      = G (ix2 (⟨512 * (t.val / 80) + (j 0).val, by
              have := t.isLt; have := N320; have hj : (j 0).val < 512 := (j 0).isLt; omega⟩ : Fin 2048)
            (⟨1024 * (t.val / 20 % 4) + (j 1).val, by have hj : (j 1).val < 1024 := (j 1).isLt; omega⟩ : Fin 4096)) := by
  obtain ⟨i0, i1⟩ := idx_o t
  rw [View.read_apply]
  show G _ = G _
  congr 1
  funext ax
  apply Fin.ext
  match ax with
  | ⟨0, _⟩ => show win0_3.index t 0 * 512 + 1 * (j 0).val = 512 * (t.val / 80) + (j 0).val; rw [i0]; omega
  | ⟨1, _⟩ => show win0_3.index t 1 * 1024 + 1 * (j 1).val = 1024 * (t.val / 20 % 4) + (j 1).val; rw [i1]; omega

/-- WHAT A WRITING POINT WRITES BACK is its block of the specification. -/
theorem flushed_eq (c : Dev nD)
    (hT : ∀ (k : Fin 20000) (q : Fin 4096), warr m c (ix2 (⟨k.val, by omega⟩ : Fin 20480) q) = T (ix2 k q))
    (t : Fin cfg0.N) (hf : (cfg0.win 3).flush t = true) :
    (dats m 0 c).flushed 3 t
      = ((cfg0.win 3).blk t).view.read (Elt Ideal)
          (Cert.Spec.result (m ((c : Thread nD τ).loc main_arg0)) T (m ((c : Thread nD τ).loc main_arg2))) := by
  have h19 : t.val % 20 = 19 := (flush0_3 t).mp hf
  rw [flushed_last m c t h19]
  funext j
  exact (out_value_idx m T c hT t h19 j).trans (read_out_blk _ t j).symm

/-- Every entry of the result lies in the block of the last step of some run. -/
theorem cover (i : S2048x4096.Idx) :
    ∃ t : Fin cfg0.N, (cfg0.win 3).flush t = true ∧ i ∈ ((cfg0.win 3).blk t).view.set := by
  have h0 : (i 0).val < 2048 := (i 0).isLt
  have h1 : (i 1).val < 4096 := (i 1).isLt
  have hN := N320
  let t : Fin cfg0.N := ⟨80 * ((i 0).val / 512) + 20 * ((i 1).val / 1024) + 19, by omega⟩
  have htv : t.val = 80 * ((i 0).val / 512) + 20 * ((i 1).val / 1024) + 19 := rfl
  obtain ⟨i0, i1⟩ := idx_o t
  refine ⟨t, (flush0_3 t).mpr (by omega), ?_⟩
  show i ∈ ((View.whole main_v21).slice (win0_3.rect t)).set
  rw [View.set_slice_whole, Rect.mem_set_unit]
  intro ax
  match ax with
  | ⟨0, _⟩ =>
    show win0_3.index t 0 * 512 ≤ (i 0).val ∧ (i 0).val < win0_3.index t 0 * 512 + 512
    rw [i0]; omega
  | ⟨1, _⟩ =>
    show win0_3.index t 1 * 1024 ≤ (i 1).val ∧ (i 1).val < win0_3.index t 1 * 1024 + 1024
    rw [i1]; omega

/-- THE RESULT ARRAY after the run is the specification of the arguments and `T`. -/
theorem final (c : Dev nD)
    (hT : ∀ (k : Fin 20000) (q : Fin 4096), warr m c (ix2 (⟨k.val, by omega⟩ : Fin 20480) q) = T (ix2 k q)) :
    (dats m 0 c).arrAt 3 cfg0.N
      = Cert.Spec.result (m ((c : Thread nD τ).loc main_arg0)) T (m ((c : Thread nD τ).loc main_arg2)) :=
  (dats m 0 c).arrAt_eq_of_cover 3 _ (fun t hf => flushed_eq m T c hT t hf) cover

end Cert.KernelIdeal.Hand

end
-- ==== Proof.LibPointScatter.lean ====
/-
  POINT SCATTER, READ AT ONE ELEMENT.

  The host's accumulating scatter (`stablehlo.scatter` with an `add` body) of `N` SCALAR updates into an
  `R × C` table, the start indices an `N × 2` array of (row, column) pairs: the dimension numbers have no update
  window axes, both operand axes inserted, the index vector's components going to operand axes `0` and `1` in
  order, and the index vector on the scatter indices' axis `1`. At the ideal instance the scattered table is, at every
  element, the operand's element plus the exact sum of the updates that land there.

  * `resultIdx?_eq_some_iff` (any dimension numbers): update `j` lands at element `i` exactly when on every operand
    axis the signed start plus the window coordinate IS `i`'s coordinate (the range test of `resultIdx?` is then
    implied by `i` being an index).
  * `start_zero`, `start_one`, `window_eq_zero`: for the point scatter's dimension numbers, update `j`'s start on
    operand axis `0` / `1` is row `j`'s first / second index, read signed, and its window coordinate is `0`.
  * `resultIdx?_point_iff`: so update `j` lands at `(r, q)` exactly when its index pair, read signed, is `(r, q)`: a
    negative or too large component never lands (the update is dropped).
  * `scatterAdd_apply`: the scattered table at `(r, q)` is the operand there plus the sum of `upd j` over the `j < N`
    whose index pair is `(r, q)`, the sum re-indexed from the rank-1 update indices to `Fin N`.

  Nothing here depends on the sizes `R`, `C`, `N` or on the index width `w`.
-/
import Idealize.ShloMosaic.PureOps.Ideal
import Idealize.ShloMosaic.PureOps.Ideal.Laws
import Idealize.ShloMosaic.Lib.ValueIdx

noncomputable section

open scoped BigOperators

namespace Idealize.ShloMosaic.PointScatter

open Idealize.ShloMosaic Idealize.ShloMosaic.ValueIdx

/-- An update lands at element `i` exactly when, on every operand axis, its signed start plus its window
    coordinate is `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hh
      have hi := Option.some.inj h
      intro a
      have h1 := hh a
      rw [← hi]
      simp only
      omega
    · cases h
  · intro h
    have hh : ∀ a, 0 ≤ d.start j idx a + (d.window j a : Int) ∧ d.start j idx a + (d.window j a : Int) < s.size a := by
      intro a
      have h1 := h a
      have h2 := (i a).isLt
      omega
    rw [dif_pos hh]
    congr 1
    funext a
    apply Fin.ext
    have h1 := h a
    simp only
    omega

/-! ## The point scatter's dimension numbers -/

/-- The dimension numbers of a scatter of `N` scalar updates into an `R × C` table at `N` (row, column) pairs. -/
abbrev pointDims (R C N : Nat)
    (wf : ScatterDims.WF ⟨2, ![R, C]⟩ ⟨2, ![N, 2]⟩ ⟨1, ![N]⟩ [] [0, 1] [0, 1] 1) :
    ScatterDims ⟨2, ![R, C]⟩ ⟨2, ![N, 2]⟩ ⟨1, ![N]⟩ :=
  ⟨[], [0, 1], [0, 1], 1, wf⟩

variable {R C N : Nat} (wf : ScatterDims.WF ⟨2, ![R, C]⟩ ⟨2, ![N, 2]⟩ ⟨1, ![N]⟩ [] [0, 1] [0, 1] 1)

/-- Both operand axes are inserted: no operand axis is a window axis. -/
theorem sKept_eq_nil : (pointDims R C N wf).sKept = [] := by
  show (List.finRange 2).filter (fun a : Fin 2 => a ∉ ([0, 1] : List (Fin 2))) = []
  decide

/-- The window coordinate of an update is `0` on both operand axes. -/
theorem window_eq_zero (j : (⟨1, ![N]⟩ : Shape).Idx) (a : Fin 2) : (pointDims R C N wf).window j a = 0 := by
  unfold ScatterDims.window
  rw [dif_neg]
  rw [sKept_eq_nil]
  exact List.not_mem_nil

/-- The scatter-indices index at which update `j` reads component `c` of its start index is `(j, c)`. -/
theorem siIdx_eq (j : (⟨1, ![N]⟩ : Shape).Idx) (c : Fin 2) :
    (pointDims R C N wf).siIdx j c = ix2 (j 0) c := by
  funext b
  match b with
  | ⟨0, _⟩ =>
    unfold ScatterDims.siIdx
    rw [dif_neg Nat.zero_ne_one]
    apply Fin.ext
    unfold ScatterDims.siCoord
    simp only [Fin.coe_cast]
    exact congrArg (fun y : Fin 1 => (j y).val) (Subsingleton.elim _ _)
  | ⟨1, _⟩ =>
    unfold ScatterDims.siIdx
    rw [dif_pos rfl]
    rfl

/-- The operand axes the index vector's components go to are both of them. -/
theorem mem_sdto (a : Fin 2) : a ∈ (pointDims R C N wf).scatterDimsToOperandDims := by
  show a ∈ ([0, 1] : List (Fin 2))
  revert a; decide

/-- Update `j`'s start on operand axis `0` is its row index, read signed. -/
theorem start_zero {w : Nat} (j : (⟨1, ![N]⟩ : Shape).Idx) (idx : IVec ⟨2, ![N, 2]⟩ w) :
    (pointDims R C N wf).start j idx 0 = (idx (ix2 (j 0) 0)).toInt := by
  unfold ScatterDims.start
  rw [dif_pos (mem_sdto wf 0)]
  exact congrArg (fun k => (idx k).toInt) (siIdx_eq wf j 0)

/-- Update `j`'s start on operand axis `1` is its column index, read signed. -/
theorem start_one {w : Nat} (j : (⟨1, ![N]⟩ : Shape).Idx) (idx : IVec ⟨2, ![N, 2]⟩ w) :
    (pointDims R C N wf).start j idx 1 = (idx (ix2 (j 0) 1)).toInt := by
  unfold ScatterDims.start
  rw [dif_pos (mem_sdto wf 1)]
  exact congrArg (fun k => (idx k).toInt) (siIdx_eq wf j 1)

/-- Update `j` lands at `(r, q)` exactly when its index pair, read signed, is `(r, q)`. -/
theorem resultIdx?_point_iff {w : Nat} (j : (⟨1, ![N]⟩ : Shape).Idx) (idx : IVec ⟨2, ![N, 2]⟩ w) (r : Fin R) (q : Fin C) :
    (pointDims R C N wf).resultIdx? j idx = some (ix2 r q)
      ↔ (idx (ix2 (j 0) 0)).toInt = (r.val : Int) ∧ (idx (ix2 (j 0) 1)).toInt = (q.val : Int) := by
  rw [resultIdx?_eq_some_iff]
  constructor
  · intro h
    have h0 := h 0
    have h1 := h 1
    rw [start_zero, window_eq_zero, Nat.cast_zero, add_zero] at h0
    rw [start_one, window_eq_zero, Nat.cast_zero, add_zero] at h1
    exact ⟨h0, h1⟩
  · rintro ⟨h0, h1⟩ a
    match a with
    | ⟨0, _⟩ =>
      show (pointDims R C N wf).start j idx 0 + (((pointDims R C N wf).window j 0 : Nat) : Int) = (r.val : Int)
      rw [start_zero, window_eq_zero, Nat.cast_zero, add_zero]; exact h0
    | ⟨1, _⟩ =>
      show (pointDims R C N wf).start j idx 1 + (((pointDims R C N wf).window j 1 : Nat) : Int) = (q.val : Int)
      rw [start_one, window_eq_zero, Nat.cast_zero, add_zero]; exact h1

/-- A rank-1 index set of extent `N` is `Fin N`. -/
def idxEquiv1 (N : Nat) : (⟨1, ![N]⟩ : Shape).Idx ≃ Fin N where
  toFun j := j 0
  invFun a := ix1 a
  left_inv j := (eq_ix1 j).symm
  right_inv _ := rfl

/-- The scattered table at `(r, q)`: the operand there plus the sum of the updates whose index pair, read signed, is
    `(r, q)`. -/
theorem scatterAdd_apply {φ : FTy} {w : Nat} (R C N : Nat)
    (wf : ScatterDims.WF ⟨2, ![R, C]⟩ ⟨2, ![N, 2]⟩ ⟨1, ![N]⟩ [] [0, 1] [0, 1] 1)
    (x : FVec Ideal ⟨2, ![R, C]⟩ φ) (idx : IVec ⟨2, ![N, 2]⟩ w) (upd : FVec Ideal ⟨1, ![N]⟩ φ) (r : Fin R) (q : Fin C) :
    Host.scatterAdd (⟨[], [0, 1], [0, 1], 1, wf⟩ : ScatterDims ⟨2, ![R, C]⟩ ⟨2, ![N, 2]⟩ ⟨1, ![N]⟩) x idx upd (ix2 r q)
      = x (ix2 r q) + ∑ j ∈ Finset.univ.filter (fun j : Fin N => (idx (ix2 j 0)).toInt = (r.val : Int) ∧ (idx (ix2 j 1)).toInt = (q.val : Int)), upd (ix1 j) := by
  show x (ix2 r q) + ∑ j ∈ Finset.univ.filter (fun j => (pointDims R C N wf).resultIdx? j idx = some (ix2 r q)), upd j = _
  congr 1
  refine Finset.sum_equiv (idxEquiv1 N) ?_ ?_
  · intro j
    simp only [Finset.mem_filter, Finset.mem_univ, true_and]
    exact resultIdx?_point_iff wf j idx r q
  · intro j _
    exact congrArg upd (eq_ix1 j)

end Idealize.ShloMosaic.PointScatter
-- ==== Proof.RefIndex.lean ====
import proofs.«103931_j84181359001849_1_alg».proof.Proof.Gen.ReferenceIdeal.Read
import proofs.«103931_j84181359001849_1_alg».proof.Proof.LibIndexWrap

/-!
# The reference's scatter start indices, read at a row

The reference joins the two wrapped index columns (rows wrapped by 20000, columns by 4096) into the array its
scatter reads. At row `j` that array holds the two entries of `ind` at row `j`, each wrapped by its extent.
-/

noncomputable section

namespace Cert.ReferenceIdeal.Hand

open Cert.ReferenceIdeal Cert.ReferenceIdeal.Gen Idealize.ShloMosaic Idealize.ShloMosaic.ValueIdx

/-- The reference's start-index array at row `j`: the row index wrapped by 20000, the column index by 4096. -/
theorem ref_idx (ind : IVec S2000000x2 32) (j : Fin 2000000) :
    Cert.ReferenceIdeal.Read.val_main_v17 (F := Ideal) ind (ix2 j 0) = IndexWrap.wrap 20000#32 (ind (ix2 j 0))
    ∧ Cert.ReferenceIdeal.Read.val_main_v17 (F := Ideal) ind (ix2 j 1) = IndexWrap.wrap 4096#32 (ind (ix2 j 1)) :=
  IndexWrap.wrapped_pair_apply 20000#32 4096#32 ind slices_S2000000x2_S2000000x1_0_0 slices_S2000000x2_S2000000x1_0_1
    shapeCasts_S2000000x1_S2000000 bcast_S_S2000000 bcast_S2000000_S2000000x1_0
    concatenates_S2000000x1_S2000000x1_S2000000x2_d1 j

end Cert.ReferenceIdeal.Hand

end
-- ==== Proof.Tables.lean ====
/-
  The two dense tables agree on the first 20000 rows when every row index is non-negative.

  Each table is a scatter of the 2000000 values into a table of zeros at (row, column) pairs: at an element (r, q) it
  holds 0 plus the sum of the values kv[j] over the j whose wrapped pair, read signed, is (r, q). The reference wraps a
  row index by 20000 and the kernel by 20480, both wrap a column index by 4096; wrapping leaves a non-negative index
  alone, so with every row index non-negative the two programs select, at (t, q) with t < 20000, the same set of j:
  those with row index t and wrapped column index q. The two sums are then the same sum.
-/
import proofs.«103931_j84181359001849_1_alg».proof.Proof.Gen.KernelIdeal.Launch
import proofs.«103931_j84181359001849_1_alg».proof.Proof.Gen.ReferenceIdeal.Read
import proofs.«103931_j84181359001849_1_alg».proof.Proof.LibPointScatter
import proofs.«103931_j84181359001849_1_alg».proof.Proof.LibIndexWrap
import proofs.«103931_j84181359001849_1_alg».proof.Proof.RefIndex
import proofs.«103931_j84181359001849_1_alg».proof.Proof.KerIndex

noncomputable section

open scoped BigOperators

namespace Cert.Tables

open Idealize.ShloMosaic Idealize.ShloMosaic.ValueIdx

/-- The kernel's table at (r, q): zero plus the sum of the values whose wrapped index pair is (r, q). -/
theorem ker_table [Cert.KernelIdeal.Facts] (kv : FVec Ideal Cert.KernelIdeal.S2000000 .f32) (ind : IVec Cert.KernelIdeal.S2000000x2 32)
    (r : Fin 20480) (q : Fin 4096) :
    Host.scatterAdd Cert.KernelIdeal.scatter_S20480x4096_S2000000x2_S2000000_n_01_01_1
        (broadcastInDim Cert.KernelIdeal.S20480x4096 ![] Cert.KernelIdeal.Facts₀.bcast_S_S20480x4096
          (constant (F := Ideal) Cert.KernelIdeal.S_ .f32 0x00000000#32))
        (Cert.KernelIdeal.Hand.kerIdx ind) kv (ix2 r q)
      = FloatOps.ofBits (F := Ideal) .f32 0x00000000#32
        + ∑ j ∈ Finset.univ.filter (fun j : Fin 2000000 =>
            (Cert.KernelIdeal.Hand.kerIdx ind (ix2 j 0)).toInt = (r.val : Int) ∧ (Cert.KernelIdeal.Hand.kerIdx ind (ix2 j 1)).toInt = (q.val : Int)), kv (ix1 j) :=
  PointScatter.scatterAdd_apply 20480 4096 2000000
    Cert.KernelIdeal.Facts₀.scatter_S20480x4096_S2000000x2_S2000000_n_01_01_1_wf _ (Cert.KernelIdeal.Hand.kerIdx ind) kv r q

/-- The reference's table at (t, q): zero plus the sum of the values whose wrapped index pair is (t, q). -/
theorem ref_table (kv : FVec Ideal Cert.ReferenceIdeal.S2000000 .f32) (ind : IVec Cert.ReferenceIdeal.S2000000x2 32)
    (t : Fin 20000) (q : Fin 4096) :
    Cert.ReferenceIdeal.Read.val_main_v18 (F := Ideal) kv ind (ix2 t q)
      = FloatOps.ofBits (F := Ideal) .f32 0x00000000#32
        + ∑ j ∈ Finset.univ.filter (fun j : Fin 2000000 =>
            (Cert.ReferenceIdeal.Read.val_main_v17 (F := Ideal) ind (ix2 j 0)).toInt = (t.val : Int)
              ∧ (Cert.ReferenceIdeal.Read.val_main_v17 (F := Ideal) ind (ix2 j 1)).toInt = (q.val : Int)), kv (ix1 j) :=
  PointScatter.scatterAdd_apply 20000 4096 2000000
    Cert.ReferenceIdeal.Facts₀.scatter_S20000x4096_S2000000x2_S2000000_n_01_01_1_wf _
    (Cert.ReferenceIdeal.Read.val_main_v17 (F := Ideal) ind) kv t q

/-- With every row index non-negative the two tables agree on the first 20000 rows. -/
theorem tables_agree [Cert.KernelIdeal.Facts] [Cert.ReferenceIdeal.Facts]
    (kv : FVec Ideal Cert.ReferenceIdeal.S2000000 .f32) (ind : IVec Cert.ReferenceIdeal.S2000000x2 32)
    (hrows : ∀ j : Fin 2000000, 0 ≤ (ind (ix2 j 0)).toInt) (t : Fin 20000) (q : Fin 4096) :
    Host.scatterAdd Cert.KernelIdeal.scatter_S20480x4096_S2000000x2_S2000000_n_01_01_1
        (broadcastInDim Cert.KernelIdeal.S20480x4096 ![] Cert.KernelIdeal.Facts₀.bcast_S_S20480x4096
          (constant (F := Ideal) Cert.KernelIdeal.S_ .f32 0x00000000#32))
        (Cert.KernelIdeal.Hand.kerIdx ind) kv (ix2 (⟨t.val, by omega⟩ : Fin 20480) q)
      = Cert.ReferenceIdeal.Read.val_main_v18 (F := Ideal) kv ind (ix2 t q) := by
  refine (ker_table kv ind ⟨t.val, _⟩ q).trans ((ref_table kv ind t q).trans ?_).symm
  refine congrArg (fun s => FloatOps.ofBits (F := Ideal) .f32 0x00000000#32 + s) ?_
  refine Finset.sum_congr (Finset.filter_congr fun j _ => ?_) fun _ _ => rfl
  rw [(Cert.KernelIdeal.Hand.ker_idx ind j).1, (Cert.KernelIdeal.Hand.ker_idx ind j).2, (Cert.ReferenceIdeal.Hand.ref_idx ind j).1, (Cert.ReferenceIdeal.Hand.ref_idx ind j).2,
    IndexWrap.wrap_of_nonneg _ _ (hrows j), IndexWrap.wrap_of_nonneg _ _ (hrows j)]

/-- info: 'Cert.Tables.tables_agree' depends on axioms: [propext, Classical.choice, Quot.sound] -/
#guard_msgs (whitespace := lax) in #print axioms tables_agree

end Cert.Tables

end
-- ==== Proof.RowsNonneg.lean ====
/-
  The integer conjunct of the precondition, decoded. The precondition is a conjunction of four "all" statements; the
  last says that every entry of column 0 of the index table, read as a signed 32-bit word, is at least 0. Column 0 is
  taken by slicing the [2000000 × 2] table to [2000000 × 1] at offset (0, 0) and reshaping to a vector of length 2000000:
  entry j of that vector is the table's entry (j, 0), because position j of the vector and position (j, 0) of the
  [2000000 × 1] slice have the same row-major position j·1 + 0. A conjunction of one-bit words is 1 exactly when each is;
  an "and"-reduction to a single result is 1 only when every element is 1; a signed "≥" word is 1 exactly when the
  integers compare. Hence 0 ≤ table[j, 0] for every j, with no enumeration of the two million rows.
-/
import proofs.«103931_j84181359001849_1_alg».proof.Proof.Gen.Pre_finite_inputs
import Idealize.ShloMosaic.Lib.ReduceAll
import Idealize.ShloMosaic.Lib.ValueIdx
import Idealize.ShloMosaic.Lib.Pipeline.Value

noncomputable section

namespace Cert.RowsNonneg

open Idealize.ShloMosaic Idealize.ShloMosaic.ValueIdx Cert.Pre_finite_inputs

/-- Entry j of column 0 (the slice at offset (0, 0), reshaped to a vector) is the table's entry (j, 0). -/
theorem col0_apply [Cert.Pre_finite_inputs.Facts] (a3 : IVec S2000000x2 32) (j : Fin 2000000) :
    (shapeCast S2000000 (extractStridedSlice S2000000x1 ![0, 0] a3 Facts.slices_S2000000x2_S2000000x1_0_0)
      Facts.shapeCasts_S2000000x1_S2000000) (ix1 j) = a3 (ix2 j 0) := by
  refine (shapeCast_apply _ _ (ix1 j) (ix2 j (0 : Fin 1)) ?_).trans ?_
  · -- the two row-major positions: j on the vector, j·1 + 0 on the one-column rectangle
    rw [Shape.rowMajor_val_one, Shape.rowMajor_val_two]
    show j.val * 1 + 0 = j.val
    omega
  · -- the slice at offset (0, 0): each coordinate is kept
    refine extractStridedSlice_apply _ _ _ (ix2 j (0 : Fin 1)) (ix2 j (0 : Fin 2)) ?_
    intro a
    match a with
    | ⟨0, _⟩ => show j.val = 0 + j.val; omega
    | ⟨1, _⟩ => show (0 : Nat) = 0 + 0; rfl

/-- Under the precondition every row index, read signed, is nonnegative. -/
theorem rows_nonneg [Cert.Pre_finite_inputs.Facts] {F : FTy → Type} [FloatOps F]
    (a0 : FVec F S2048x20000 .f32) (a1 : FVec F S2000000 .f32) (a2 : FVec F S4096 .f32) (a3 : IVec S2000000x2 32)
    (h : Cert.Pre_finite_inputs.fn (F := F) a0 a1 a2 a3 = fun _ => 1#1) (j : Fin 2000000) :
    0 ≤ (a3 (ix2 j 0)).toInt := by
  -- the scalar shape has one index
  haveI : Subsingleton S_.Idx := ⟨fun a b => funext fun d => d.elim0⟩
  have e := congrFun h ValueIdx.ix0
  dsimp only [Cert.Pre_finite_inputs.fn, Cert.Pre_finite_inputs.fn_part1] at e
  -- the last conjunct of the conjunction
  have e2 := (IntOp.andi_eq_one.1 e).2
  -- the "all" over the vector, at position j
  have e3 := Host.reduce_andi_all _ _ _ _ _ e2 (ix1 j)
  -- the signed comparison with the constant 0, read on the integers
  have e4 : (0#32 : BitVec 32).toInt ≤ ((shapeCast S2000000 (extractStridedSlice S2000000x1 ![0, 0] a3
      Facts.slices_S2000000x2_S2000000x1_0_0) Facts.shapeCasts_S2000000x1_S2000000) (ix1 j)).toInt :=
    IntOp.cmpi_sge.1 e3
  rw [col0_apply a3 j] at e4
  exact e4

/-- info: 'Cert.RowsNonneg.rows_nonneg' depends on axioms: [propext, Classical.choice, Quot.sound] -/
#guard_msgs (whitespace := lax) in #print axioms rows_nonneg

end Cert.RowsNonneg

end
-- ==== Proof.RefValue.lean ====
/- The reference's result at (p, q), read down to its dense table: the tanh of the row of x against the
   column of the table, plus the bias at q. The table itself (a scatter-add) is left closed. -/
import proofs.«103931_j84181359001849_1_alg».proof.Proof.Gen.ReferenceIdeal.Read

noncomputable section

namespace Cert.ReferenceIdeal.Hand

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

open scoped BigOperators

/-- The left operand's index of the product, at output (p, q) and contraction position t, is (p, t). -/
theorem lidx_ix2 (p : Fin 2048) (q : Fin 4096) (t : Fin 20000) :
    lidx_main_v19 (ix2 p q) t = ix2 p t :=
  funext fun a => Fin.ext (by match a with | ⟨0, _⟩ => rfl | ⟨1, _⟩ => rfl)

/-- The right operand's index of the product, at output (p, q) and contraction position t, is (t, q). -/
theorem ridx_ix2 (p : Fin 2048) (q : Fin 4096) (t : Fin 20000) :
    ridx_main_v19 (ix2 p q) t = ix2 t q :=
  funext fun a => Fin.ext (by match a with | ⟨0, _⟩ => rfl | ⟨1, _⟩ => rfl)

/-- The two broadcasts of the bias, composed at (p, q), read the bias at q. -/
theorem bidx_ix2 (p : Fin 2048) (q : Fin 4096) :
    idx_main_v20 (idx_main_v21 (ix2 p q)) = ix1 q :=
  funext fun a => Fin.ext (by match a with | ⟨0, _⟩ => rfl)

/-- The reference's result at (p, q): tanh (∑ t, x[p,t] · table[t,q] + bias[q]). -/
theorem ref_apply (x : FVec Ideal S2048x20000 .f32) (kv : FVec Ideal S2000000 .f32) (bias : FVec Ideal S4096 .f32)
    (ind : IVec S2000000x2 32) (p : Fin 2048) (q : Fin 4096) :
    Cert.ReferenceIdeal.Read.val_main_v23 (F := Ideal) x kv bias ind (ix2 p q)
      = Ideal.tanh ((∑ t : Fin 20000, x (ix2 p t) * Cert.ReferenceIdeal.Read.val_main_v18 (F := Ideal) kv ind (ix2 t q))
          + bias (ix1 q)) := by
  rw [val_main_v23_apply, val_main_v22_apply, val_main_v21_apply, val_main_v20_apply, val_main_v19_apply]
  simp only [lidx_ix2, ridx_ix2, bidx_ix2, Ideal.hostUnary_tanh_def, Ideal.addf_def]

end Cert.ReferenceIdeal.Hand

end
-- ==== Proof.lean ====
/-
  The kernel and its reference compute `tanh (x · T + bias)`, where `T` is the dense 20000 × 4096 table built from the
  coordinate list by adding each value at its (row, column).

  The reference scatters into a table of 20000 rows and contracts `x` with it. The kernel scatters into a table of 20480
  rows (the contraction axis padded to twenty blocks of 1024), pads `x` with 480 zero columns, and accumulates the
  product block by block over a grid; its last step adds the bias and takes `tanh`. jnp wraps a negative index by the
  extent of the axis it indexes, so a negative row lands on different rows of the two tables; the statement therefore
  asks that every row index be non-negative (beside the finiteness of the float inputs, which this proof never uses).
  Under it the two tables agree on their first 20000 rows: an update lands on the same row of both, or beyond row 20000,
  where the reference drops it and the kernel's copy meets a padding zero of `x`. Columns are wrapped alike on both sides,
  and an update that lands outside either table is dropped by both. The kernel's twenty partial sums regroup into one
  sum by commutativity and associativity alone, and the 480 padding products vanish because zero times any extended real
  is zero.

  The three frames are the generated ones (the reference's is its generated run with the result dropped); the ideal pass
  rewrote nothing, so the kernel's idealization is its own text read on the extended reals.
-/
import proofs.«103931_j84181359001849_1_alg».proof.Defs
import proofs.«103931_j84181359001849_1_alg».proof.Proof.Gen.Kernel
import proofs.«103931_j84181359001849_1_alg».proof.Proof.Gen.Kernel.Skeleton
import proofs.«103931_j84181359001849_1_alg».proof.Proof.Gen.Kernel.Launch
import proofs.«103931_j84181359001849_1_alg».proof.Proof.Gen.Kernel.Points
import proofs.«103931_j84181359001849_1_alg».proof.Proof.Gen.Kernel.Frame
import proofs.«103931_j84181359001849_1_alg».proof.Proof.Gen.KernelIdeal
import proofs.«103931_j84181359001849_1_alg».proof.Proof.Gen.KernelIdeal.Skeleton
import proofs.«103931_j84181359001849_1_alg».proof.Proof.Gen.KernelIdeal.Launch
import proofs.«103931_j84181359001849_1_alg».proof.Proof.Gen.KernelIdeal.Points
import proofs.«103931_j84181359001849_1_alg».proof.Proof.Gen.KernelIdeal.Frame
import proofs.«103931_j84181359001849_1_alg».proof.Proof.Gen.ReferenceIdeal
import proofs.«103931_j84181359001849_1_alg».proof.Proof.Gen.Pre_finite_inputs
import proofs.«103931_j84181359001849_1_alg».proof.Proof.Gen.KernelIdeal.Value
import proofs.«103931_j84181359001849_1_alg».proof.Proof.Gen.ReferenceIdeal.Run
import proofs.«103931_j84181359001849_1_alg».proof.Proof.Gen.ReferenceIdeal.Read
import proofs.«103931_j84181359001849_1_alg».proof.Proof.KernelFinal
import proofs.«103931_j84181359001849_1_alg».proof.Proof.Tables
import proofs.«103931_j84181359001849_1_alg».proof.Proof.RowsNonneg
import proofs.«103931_j84181359001849_1_alg».proof.Proof.RefValue
import Idealize.ShloMosaic.Adequacy
import Idealize.ShloMosaic.Init

noncomputable section

namespace Cert.Proof

open Idealize.ShloMosaic Idealize.SL.Sem Idealize.ShloMosaic.ValueIdx

/-- The reference's result, entry by entry, is the specification over the reference's own table. -/
theorem reference_result (x : FVec Ideal Cert.ReferenceIdeal.S2048x20000 .f32) (kv : FVec Ideal Cert.ReferenceIdeal.S2000000 .f32)
    (bias : FVec Ideal Cert.ReferenceIdeal.S4096 .f32) (ind : IVec Cert.ReferenceIdeal.S2000000x2 32) :
    Cert.ReferenceIdeal.Read.val_main_v23 (F := Ideal) x kv bias ind
      = Cert.Spec.result x (Cert.ReferenceIdeal.Read.val_main_v18 (F := Ideal) kv ind) bias := by
  funext i
  obtain ⟨p, q, rfl⟩ : ∃ (p : Fin 2048) (q : Fin 4096), i = ix2 p q := ⟨i 0, i 1, eq_ix2 i⟩
  rw [Cert.ReferenceIdeal.Hand.ref_apply, Cert.Spec.result_apply]

/-- The kernel's run, its result array named: the specification over the reference's table. The precondition is used
    once, for the sign of the row indices, which makes the two tables agree on the rows the contraction reads. -/
theorem kernel_run (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v21)
          = Cert.Spec.result (m ((c.tc : Thread Cert.KernelIdeal.nD Cert.KernelIdeal.τ).loc Cert.KernelIdeal.main_arg0))
              (Cert.ReferenceIdeal.Read.val_main_v18 (F := Ideal)
                (m ((c.tc : Thread Cert.KernelIdeal.nD Cert.KernelIdeal.τ).loc Cert.KernelIdeal.main_arg1))
                (m ((c.tc : Thread Cert.KernelIdeal.nD Cert.KernelIdeal.τ).loc Cert.KernelIdeal.main_arg3)))
              (m ((c.tc : Thread Cert.KernelIdeal.nD Cert.KernelIdeal.τ).loc Cert.KernelIdeal.main_arg2))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) := by
  refine (θ_run (Cert.KernelIdeal.defs (F := Ideal)) _ _).mono (fun r h c => ⟨(h c).1.trans ?_, (h c).2⟩)
    (Cert.KernelIdeal.Value.run_blocks (F := Ideal) m ρ)
  refine Cert.KernelIdeal.Hand.final m _ c fun k q => ?_
  show Cert.KernelIdeal.Gen.V m c Cert.KernelIdeal.main_v18 _ = _
  rw [Cert.KernelIdeal.Hand.V_table m c]
  exact Cert.Tables.tables_agree _ _ (fun j => Cert.RowsNonneg.rows_nonneg _ _ _ _ (hpre c) j) k q

namespace Claims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end with the result at the specification of the same arguments and the same table. -/
theorem algebraic : Cert.algebraic_KernelIdeal_ReferenceIdeal := by
  intro m ρ m' ρ' hpre hagree
  refine ⟨_, kernel_run m ρ hpre, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact reference_result _ _ _ _

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
